-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S50000 .f32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S1600000x1 : Shape := ⟨2, ![1600000, 1]⟩
abbrev S100000 : Shape := ⟨1, ![100000]⟩
abbrev S1600000x128 : Shape := ⟨2, ![1600000, 128]⟩
abbrev S50000x128 : Shape := ⟨2, ![50000, 128]⟩
abbrev S50000x1 : Shape := ⟨2, ![50000, 1]⟩
abbrev S100000x1 : Shape := ⟨2, ![100000, 1]⟩
abbrev S1x128 : Shape := ⟨2, ![1, 128]⟩
abbrev S5000x1 : Shape := ⟨2, ![5000, 1]⟩

abbrev nBuf : Space → Nat
  | .hbm => 108
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S50000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S1x128, .f32⟩
  | .hbm, ⟨82, _⟩ => ⟨S100000x128, .f32⟩
  | .hbm, ⟨83, _⟩ => ⟨S1x128, .f32⟩
  | .hbm, ⟨84, _⟩ => ⟨S1x128, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S1x128, .f32⟩
  | .hbm, ⟨107, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_v54_2 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  dot_S5000x128_S128x128_S5000x128_1_0_0_1_n_n_wf : DotDims.WF S5000x128 S128x128 S5000x128 [1] [0] [0] [1] [] []
  gather_S50000_S1600000x1_S1600000_n_0_n_n_0_1_1_wf : GatherDims.WF S50000 S1600000x1 S1600000 [] [0] [] [0] [] 1 ![1]
  scatter_S100000_S1600000x1_S1600000_n_0_0_1_wf : ScatterDims.WF S100000 S1600000x1 S1600000 [] [0] [0] 1
  scatter_S50000_S1600000x1_S1600000_n_0_0_1_wf : ScatterDims.WF S50000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v54_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S1600000x128 : Shape := ⟨2, ![1600000, 128]⟩
abbrev S50000x128 : Shape := ⟨2, ![50000, 128]⟩
abbrev S50000x1 : Shape := ⟨2, ![50000, 1]⟩
abbrev S100000x1 : Shape := ⟨2, ![100000, 1]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S50000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S_, .f32⟩
  | .hbm, ⟨119, _⟩ => ⟨S100000x128, .f32⟩
  | .hbm, ⟨120, _⟩ => ⟨S100000x128, .f32⟩
  | .hbm, ⟨121, _⟩ => ⟨S_, .f32⟩
  | .hbm, ⟨122, _⟩ => ⟨S100000x128, .f32⟩
  | .hbm, ⟨123, _⟩ => ⟨S100000x128, .f32⟩
  | .hbm, ⟨124, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_cst_18 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_19 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_20 : Ref sig .tc := ⟨.hbm, 118, rfl⟩
abbrev main_v85 : Ref sig .tc := ⟨.hbm, 119, rfl⟩
abbrev main_v86 : Ref sig .tc := ⟨.hbm, 120, rfl⟩
abbrev main_cst_21 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  gather_S50000_S1600000x1_S1600000_n_0_n_n_0_1_1_wf : GatherDims.WF S50000 S1600000x1 S1600000 [] [0] [] [0] [] 1 ![1]
  scatter_S100000_S1600000x1_S1600000_n_0_0_1_wf : ScatterDims.WF S100000 S1600000x1 S1600000 [] [0] [0] 1
  scatter_S50000_S1600000x1_S1600000_n_0_0_1_wf : ScatterDims.WF S50000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  What both programs compute, written once as functions of arrays over the extended reals, index by index.

  With N = 100000 nodes and C = 128 channels:
    xw x w        the projection  (x · w)[n, j] = Σ_k x[n, k] · w[k, j];
    raw a d b     the degree-scaled aggregate plus bias, r[n, j] = a[n, j] · d[n] + b[j], the scale read from a
                  column [N, 1] and the bias from a row [1, C];
    colsum, colsumsq   the column sums Σ_n r[n, j] and Σ_n r[n, j]², as rows [1, C];
    the kernel's normalisation: mean = S1 / N, var = max (S2 / N − mean², 0), scale = γ · rsqrt (var + ε),
                  shift = β − mean · scale, out = silu (r · scale + shift);
    the reference's: mean = (0 + Σ_n r) / N, var = (0 + Σ_n (r − mean)²) / N,
                  out = silu (((r − mean) · rsqrt (var + ε)) · γ + β), with silu t = t · (1 / (1 + e^(−t))).
  The two normalisations agree on arrays of real numbers: Σ_n (r − mean)² = Σ_n r² − N · mean², which is never negative.
-/
import Idealize.ShloMosaic.PureOps.Ideal
import Idealize.ShloMosaic.Lib.ValueIdx

noncomputable section

open scoped BigOperators

namespace Cert.Spec

open Idealize.ShloMosaic Idealize.ShloMosaic.ValueIdx

abbrev SNC : Shape := ⟨2, ![100000, 128]⟩
abbrev SN1 : Shape := ⟨2, ![100000, 1]⟩
abbrev S1C : Shape := ⟨2, ![1, 128]⟩
abbrev SCC : Shape := ⟨2, ![128, 128]⟩
abbrev SC : Shape := ⟨1, ![128]⟩
abbrev SN : Shape := ⟨1, ![100000]⟩

/-- Every entry of the array is a real number (neither infinity). -/
def AllReal {ι : Type} (v : ι → EReal) : Prop := ∀ i, ∃ r : ℝ, v i = (r : EReal)

/-- The number of nodes as the programs spell it: the f32 word of 100000.0. -/
abbrev nodes : EReal := Ideal.ofBits .f32 0x47C35000#32
/-- The variance offset as the programs spell it: the f32 word nearest 1e-5. -/
abbrev eps : EReal := Ideal.ofBits .f32 0x3727C5AC#32
/-- The f32 zero word. -/
abbrev zero : EReal := Ideal.ofBits .f32 0x00000000#32
/-- The f32 word of 1.0. -/
abbrev one : EReal := Ideal.ofBits .f32 0x3F800000#32

/-- The projection: row n of x against column j of w. -/
def xw (x : SNC.Idx → EReal) (w : SCC.Idx → EReal) : SNC.Idx → EReal :=
  fun i => ∑ k : Fin 128, x (ix2 (n0 := 100000) (n1 := 128) (i 0) k) * w (ix2 (n0 := 128) (n1 := 128) k (i 1))

/-- The aggregate scaled by the node's inverse degree (a column) plus the bias (a row). -/
def raw (agg : SNC.Idx → EReal) (dinv : SN1.Idx → EReal) (b : S1C.Idx → EReal) : SNC.Idx → EReal :=
  fun i => agg i * dinv (ix2 (n0 := 100000) (n1 := 1) (i 0) 0) + b (ix2 (n0 := 1) (n1 := 128) 0 (i 1))

/-- A vector over the nodes as the column [N, 1]. -/
def colOf (d : SN.Idx → EReal) : SN1.Idx → EReal := fun i => d (ix1 (n := 100000) (i 0))
/-- A vector over the channels as the row [1, C]. -/
def rowOf (b : SC.Idx → EReal) : S1C.Idx → EReal := fun j => b (ix1 (n := 128) (j 1))

/-- The same with the scale and the bias as plain vectors. -/
def raw1 (agg : SNC.Idx → EReal) (dinv : SN.Idx → EReal) (b : SC.Idx → EReal) : SNC.Idx → EReal :=
  fun i => agg i * dinv (ix1 (n := 100000) (i 0)) + b (ix1 (n := 128) (i 1))

theorem raw_colOf_rowOf (agg : SNC.Idx → EReal) (dinv : SN.Idx → EReal) (b : SC.Idx → EReal) :
    raw agg (colOf dinv) (rowOf b) = raw1 agg dinv b := rfl

/-- Column sums, as a row. -/
def colsum (r : SNC.Idx → EReal) : S1C.Idx → EReal :=
  fun j => ∑ n : Fin 100000, r (ix2 (n0 := 100000) (n1 := 128) n (j 1))

/-- Column sums of squares, as a row. -/
def colsumsq (r : SNC.Idx → EReal) : S1C.Idx → EReal :=
  fun j => ∑ n : Fin 100000, r (ix2 (n0 := 100000) (n1 := 128) n (j 1)) * r (ix2 (n0 := 100000) (n1 := 128) n (j 1))

/-! ## The kernel's normalisation, from the two rows of column sums -/

def meanK (s1 : S1C.Idx → EReal) (j : Fin 128) : EReal := Ideal.div (s1 (ix2 (n0 := 1) (n1 := 128) 0 j)) nodes

def varK (s1 s2 : S1C.Idx → EReal) (j : Fin 128) : EReal :=
  max (Ideal.div (s2 (ix2 (n0 := 1) (n1 := 128) 0 j)) nodes - meanK s1 j * meanK s1 j) zero

def scaleK (s1 s2 : S1C.Idx → EReal) (γ : SC.Idx → EReal) (j : Fin 128) : EReal :=
  γ (ix1 j) * Ideal.rsqrt (varK s1 s2 j + eps)

def shiftK (s1 s2 : S1C.Idx → EReal) (γ β : SC.Idx → EReal) (j : Fin 128) : EReal :=
  β (ix1 j) - meanK s1 j * scaleK s1 s2 γ j

/-- The scale as the row [1, C] the last kernel reads. -/
def scaleRow (s1 s2 : S1C.Idx → EReal) (γ : SC.Idx → EReal) : S1C.Idx → EReal := fun j => scaleK s1 s2 γ (j 1)
/-- The shift as the row [1, C] the last kernel reads. -/
def shiftRow (s1 s2 : S1C.Idx → EReal) (γ β : SC.Idx → EReal) : S1C.Idx → EReal := fun j => shiftK s1 s2 γ β (j 1)

/-- The last kernel: the affine map by two rows, then t · logistic t. -/
def outK (r : SNC.Idx → EReal) (scale shift : S1C.Idx → EReal) : SNC.Idx → EReal :=
  fun i =>
    (r i * scale (ix2 (n0 := 1) (n1 := 128) 0 (i 1)) + shift (ix2 (n0 := 1) (n1 := 128) 0 (i 1)))
      * Ideal.logistic (r i * scale (ix2 (n0 := 1) (n1 := 128) 0 (i 1)) + shift (ix2 (n0 := 1) (n1 := 128) 0 (i 1)))

/-- The kernel's whole normalisation of an array r. -/
def normK (r : SNC.Idx → EReal) (γ β : SC.Idx → EReal) : SNC.Idx → EReal :=
  outK r (scaleRow (colsum r) (colsumsq r) γ) (shiftRow (colsum r) (colsumsq r) γ β)

/-! ## The reference's normalisation -/

def meanR (r : SNC.Idx → EReal) (j : Fin 128) : EReal :=
  Ideal.div (zero + ∑ n : Fin 100000, r (ix2 (n0 := 100000) (n1 := 128) n j)) nodes

def varR (r : SNC.Idx → EReal) (j : Fin 128) : EReal :=
  Ideal.div (zero + ∑ n : Fin 100000,
    (r (ix2 (n0 := 100000) (n1 := 128) n j) - meanR r j) * (r (ix2 (n0 := 100000) (n1 := 128) n j) - meanR r j)) nodes

/-- The reference's normalised value before the activation. -/
def bnR (r : SNC.Idx → EReal) (γ β : SC.Idx → EReal) (i : SNC.Idx) : EReal :=
  ((r i - meanR r (i 1)) * Ideal.rsqrt (varR r (i 1) + eps)) * γ (ix1 (i 1)) + β (ix1 (i 1))

/-- The reference's whole normalisation of an array r. -/
def normR (r : SNC.Idx → EReal) (γ β : SC.Idx → EReal) : SNC.Idx → EReal :=
  fun i => bnR r γ β i * Ideal.div one (one + Ideal.exp (-(bnR r γ β i)))

end Cert.Spec

end
-- ==== Proof.Algebra.lean ====
/-
  The two normalisations agree on arrays of real numbers. With S1 = Σ_n r, S2 = Σ_n r², N the number of rows and
  mean = S1 / N:  Σ_n (r − mean)² = S2 − N · mean², so the centred variance is S2 / N − mean², which is a mean of squares
  and never negative (the clamp at 0 is the identity); then var + ε > 0, its inverse root ρ is a real number, and
  r · (γ ρ) + (β − mean · (γ ρ)) = ((r − mean) · ρ) · γ + β by distributivity, which holds among real numbers.
  The activation t · (1 / (1 + e^(−t))) is the same function on both sides.
-/
import proofs.«144120_j55035710931434_1_alg».proof.Proof.Spec

noncomputable section

open scoped BigOperators

namespace Cert.Spec

open Idealize.ShloMosaic Idealize.ShloMosaic.ValueIdx

/-! ## The four words as extended reals -/

/-- The word of the node count denotes the real 100000 = (2^23 + 4411392) · 2^(16 − 23). -/
private theorem nodes_val : nodes = ((100000 : ℝ) : EReal) := by
  simp [nodes, Ideal.ofBits, Ideal.ieee, -EReal.coe_mul]; norm_num

private theorem zero_val : zero = 0 := by
  simp [zero, Ideal.ofBits, Ideal.ieee]

private theorem one_val : one = 1 := by
  simp [one, Ideal.ofBits, Ideal.ieee, -EReal.coe_mul]; norm_num

/-- The variance offset is a positive real number (a normal pattern with the sign bit clear). -/
private theorem eps_val : ∃ e : ℝ, 0 < e ∧ eps = (e : EReal) := by
  simp [eps, Ideal.ofBits, Ideal.ieee, -EReal.coe_mul]

/-! ## Real columns: mean and centred variance -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of a real column of 100000 entries. -/
private def mu (a : Fin 100000 → ℝ) : ℝ := (∑ n, a n) * (1 / 100000)

/-- Its centred variance: the mean of the squared deviations. -/
private def sig (a : Fin 100000 → ℝ) : ℝ := (∑ n, (a n - mu a) * (a n - mu a)) * (1 / 100000)

private theorem sig_nonneg (a : Fin 100000 → ℝ) : 0 ≤ sig a :=
  mul_nonneg (Finset.sum_nonneg fun n _ => mul_self_nonneg _) (by norm_num)

/-- The mean of the squares less the squared mean is the centred variance: Σ (a − μ)² = Σ a² − 2 μ Σ a + N μ² with Σ a = N μ. -/
private theorem sig_eq (a : Fin 100000 → ℝ) :
    (∑ n, a n * a n) * (1 / 100000) - mu a * mu a = sig a := by
  have h : ∀ n, (a n - mu a) * (a n - mu a) = a n * a n - 2 * mu a * a n + mu a * mu a := fun n => by ring
  have hS : (∑ n, a n) = 100000 * mu a := by unfold mu; ring
  unfold sig
  simp only [h, Finset.sum_add_distrib, Finset.sum_sub_distrib, ← Finset.mul_sum, Finset.sum_const, Finset.card_univ,
    Fintype.card_fin, nsmul_eq_mul]
  rw [hS]; push_cast; ring

/-! ## Both programs' statistics of a real array, as coercions -/

private theorem meanK_coe (rr : SNC.Idx → ℝ) (j : Fin 128) :
    meanK (colsum fun i => (rr i : EReal)) j = ((mu fun n => rr (ix2 n j) : ℝ) : EReal) := by
  show Ideal.div (∑ n : Fin 100000, ((rr (ix2 n j) : ℝ) : EReal)) nodes = _
  rw [nodes_val, Ideal.div_coe (by norm_num), ← coe_sum, ← EReal.coe_mul]; rfl

private theorem meanR_coe (rr : SNC.Idx → ℝ) (j : Fin 128) :
    meanR (fun i => (rr i : EReal)) j = ((mu fun n => rr (ix2 n j) : ℝ) : EReal) := by
  show Ideal.div (zero + ∑ n : Fin 100000, ((rr (ix2 n j) : ℝ) : EReal)) nodes = _
  rw [zero_val, zero_add, nodes_val, Ideal.div_coe (by norm_num), ← coe_sum, ← EReal.coe_mul]; rfl

private theorem varR_coe (rr : SNC.Idx → ℝ) (j : Fin 128) :
    varR (fun i => (rr i : EReal)) j = ((sig fun n => rr (ix2 n j) : ℝ) : EReal) := by
  unfold varR
  rw [meanR_coe, zero_val, zero_add, nodes_val, Ideal.div_coe (by norm_num)]
  simp only [← EReal.coe_sub, ← EReal.coe_mul]
  rw [← coe_sum, ← EReal.coe_mul]; rfl

/-- The kernel's variance: the clamp at 0 is the identity on a mean of squares. -/
private theorem varK_coe (rr : SNC.Idx → ℝ) (j : Fin 128) :
    varK (colsum fun i => (rr i : EReal)) (colsumsq fun i => (rr i : EReal)) j
      = ((sig fun n => rr (ix2 n j) : ℝ) : EReal) := by
  unfold varK
  rw [meanK_coe]
  show max (Ideal.div (∑ n : Fin 100000, ((rr (ix2 n j) : ℝ) : EReal) * ((rr (ix2 n j) : ℝ) : EReal)) nodes - _ * _) zero = _
  rw [zero_val, nodes_val, Ideal.div_coe (by norm_num)]
  simp only [← EReal.coe_mul]
  rw [← coe_sum, ← EReal.coe_mul, ← EReal.coe_sub, sig_eq fun n => rr (ix2 n j), max_eq_left]
  exact_mod_cast sig_nonneg _

/-- The inverse root of a positive real is a real. -/
private theorem rsqrt_pos_coe {x : ℝ} (hx : 0 < x) : Ideal.rsqrt (x : EReal) = (((Real.sqrt x)⁻¹ : ℝ) : EReal) := by
  rw [Ideal.rsqrt_coe, if_neg (not_lt.mpr hx.le), if_neg hx.ne']

/-! ## The theorem -/

/-- On real arrays the kernel's normalisation is the reference's. -/
theorem normK_eq_normR (r : SNC.Idx → EReal) (γ β : SC.Idx → EReal)
    (hr : AllReal r) (hγ : AllReal γ) (hβ : AllReal β) : normK r γ β = normR r γ β := by
  choose rr hrr using hr
  choose g hg using hγ
  choose b hb using hβ
  obtain rfl : r = fun i => (rr i : EReal) := funext hrr
  obtain rfl : γ = fun i => (g i : EReal) := funext hg
  obtain rfl : β = fun i => (b i : EReal) := funext hb
  obtain ⟨e, he, heps⟩ := eps_val
  funext i
  obtain ⟨n, j, rfl⟩ : ∃ (n : Fin 100000) (j : Fin 128), i = ix2 n j := ⟨i 0, i 1, eq_ix2 i⟩
  have hpos : 0 < sig (fun n => rr (ix2 n j)) + e := add_pos_of_nonneg_of_pos (sig_nonneg _) he
  -- the kernel's scale and shift, and the reference's normalised value, as real numbers
  have hsK : scaleK (colsum fun i => (rr i : EReal)) (colsumsq fun i => (rr i : EReal)) (fun i => (g i : EReal)) j
      = ((g (ix1 j) * (Real.sqrt (sig (fun n => rr (ix2 n j)) + e))⁻¹ : ℝ) : EReal) := by
    unfold scaleK
    rw [varK_coe, heps, ← EReal.coe_add, rsqrt_pos_coe hpos, ← EReal.coe_mul]
  have htK : shiftK (colsum fun i => (rr i : EReal)) (colsumsq fun i => (rr i : EReal)) (fun i => (g i : EReal))
        (fun i => (b i : EReal)) j
      = ((b (ix1 j) - mu (fun n => rr (ix2 n j))
          * (g (ix1 j) * (Real.sqrt (sig (fun n => rr (ix2 n j)) + e))⁻¹) : ℝ) : EReal) := by
    unfold shiftK
    rw [hsK, meanK_coe, ← EReal.coe_mul, ← EReal.coe_sub]
  have hbn : bnR (fun i => (rr i : EReal)) (fun i => (g i : EReal)) (fun i => (b i : EReal)) (ix2 n j)
      = ((rr (ix2 n j) * (g (ix1 j) * (Real.sqrt (sig (fun n => rr (ix2 n j)) + e))⁻¹)
          + (b (ix1 j) - mu (fun n => rr (ix2 n j))
            * (g (ix1 j) * (Real.sqrt (sig (fun n => rr (ix2 n j)) + e))⁻¹)) : ℝ) : EReal) := by
    show (((rr (ix2 n j) : ℝ) : EReal) - meanR (fun i => (rr i : EReal)) j)
          * Ideal.rsqrt (varR (fun i => (rr i : EReal)) j + eps) * ((g (ix1 j) : ℝ) : EReal) + ((b (ix1 j) : ℝ) : EReal) = _
    rw [meanR_coe, varR_coe, heps, ← EReal.coe_add, rsqrt_pos_coe hpos, ← EReal.coe_sub, ← EReal.coe_mul, ← EReal.coe_mul,
      ← EReal.coe_add]
    congr 1; ring
  show (((rr (ix2 n j) : ℝ) : EReal) * scaleK _ _ _ j + shiftK _ _ _ _ j)
        * Ideal.logistic (((rr (ix2 n j) : ℝ) : EReal) * scaleK _ _ _ j + shiftK _ _ _ _ j)
      = bnR _ _ _ (ix2 n j) * Ideal.div one (one + Ideal.exp (-(bnR _ _ _ (ix2 n j))))
  rw [hsK, htK, hbn, one_val, ← EReal.coe_mul, ← EReal.coe_add]
  rfl

end Cert.Spec

end
-- ==== Proof.KChain.lean ====
/-
  The host stretch the kernel's program and the reference share, as named functions of the projected features,
  the incidence list (row 0 the node of each incidence, row 1 its hyperedge) and the hyperedge weights:
    deg    D[v]  = Σ over incidences (v, e) of w[e]                      (a scatter-add of gathered weights)
    dinv   1 / D where D > 0, else 0
    edgeDeg B[e] = the number of incidences of e, binv its guarded inverse
    efeat  E[e, ·] = (Σ over incidences (v, e) of xt[v, ·]) · binv[e]
    agg    A[v, ·] = Σ over incidences (v, e) of E[e, ·]
  A negative index is first wrapped by the axis length, as numpy reads it.
-/
import proofs.«144120_j55035710931434_1_alg».proof.Proof.Gen.KernelIdeal

noncomputable section

namespace Cert.KernelIdeal.Chain

open Idealize.ShloMosaic Cert.KernelIdeal Cert.KernelIdeal.Facts₀ Cert.KernelIdeal.Facts

variable {F : FTy → Type} [FloatOps F]

/-- Row 0 of the incidence list: the node of each incidence. -/
def nodeIdx (idx : (⟨S2x1600000, .i32⟩ : BufTy).Contents (Elt F)) : (⟨S1600000, .i32⟩ : BufTy).Contents (Elt F) :=
  shapeCast _ (extractStridedSlice S1x1600000 ![0, 0] idx slices_S2x1600000_S1x1600000_0_0) shapeCasts_S1x1600000_S1600000

/-- Row 1 of the incidence list: the hyperedge of each incidence. -/
def edgeIdx (idx : (⟨S2x1600000, .i32⟩ : BufTy).Contents (Elt F)) : (⟨S1600000, .i32⟩ : BufTy).Contents (Elt F) :=
  shapeCast _ (extractStridedSlice S1x1600000 ![1, 0] idx slices_S2x1600000_S1x1600000_1_0) shapeCasts_S1x1600000_S1600000

/-- A list of indices as the column of start indices a gather or scatter takes. -/
def col (v : (⟨S1600000, .i32⟩ : BufTy).Contents (Elt F)) : (⟨S1600000x1, .i32⟩ : BufTy).Contents (Elt F) :=
  broadcastInDim S1600000x1 ![0] bcast_S1600000_S1600000x1_0 v

/-- A negative index wrapped once by the axis length n. -/
def wrap (n : BitVec 32) (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 n))) v

/-- D: each node's weighted degree. -/
def deg (idx : (⟨S2x1600000, .i32⟩ : BufTy).Contents (Elt F)) (w : (⟨S50000, .f32⟩ : BufTy).Contents (Elt F)) :
    (⟨S100000, .f32⟩ : BufTy).Contents (Elt F) :=
  Host.scatterAdd scatter_S100000_S1600000x1_S1600000_n_0_0_1
    (broadcastInDim S100000 ![] bcast_S_S100000 (constant S_ .f32 0x00000000#32))
    (col (nodeIdx idx))
    (Host.gather gather_S50000_S1600000x1_S1600000_n_0_n_n_0_1_1 w (col (wrap 50000#32 (edgeIdx idx))))

/-- 1 / D where D is positive, 0 elsewhere. -/
def dinv (idx : (⟨S2x1600000, .i32⟩ : BufTy).Contents (Elt F)) (w : (⟨S50000, .f32⟩ : BufTy).Contents (Elt F)) :
    (⟨S100000, .f32⟩ : BufTy).Contents (Elt F) :=
  select (cmpf .ogt (deg idx w) (broadcastInDim S100000 ![] bcast_S_S100000 (constant S_ .f32 0x00000000#32)))
    (Host.divf (broadcastInDim S100000 ![] bcast_S_S100000 (constant S_ .f32 0x3F800000#32)) (deg idx w))
    (broadcastInDim S100000 ![] bcast_S_S100000 (id (constant S_ .f32 0x00000000#32)))

/-- B: each hyperedge's number of incidences. -/
def edgeDeg (idx : (⟨S2x1600000, .i32⟩ : BufTy).Contents (Elt F)) : (⟨S50000, .f32⟩ : BufTy).Contents (Elt F) :=
  Host.scatterAdd scatter_S50000_S1600000x1_S1600000_n_0_0_1
    (broadcastInDim S50000 ![] bcast_S_S50000 (constant S_ .f32 0x00000000#32))
    (col (edgeIdx idx))
    (broadcastInDim S1600000 ![] bcast_S_S1600000 (constant S_ .f32 0x3F800000#32))

/-- 1 / B where B is positive, 0 elsewhere. -/
def binv (idx : (⟨S2x1600000, .i32⟩ : BufTy).Contents (Elt F)) : (⟨S50000, .f32⟩ : BufTy).Contents (Elt F) :=
  select (cmpf .ogt (edgeDeg idx) (broadcastInDim S50000 ![] bcast_S_S50000 (constant S_ .f32 0x00000000#32)))
    (Host.divf (broadcastInDim S50000 ![] bcast_S_S50000 (constant S_ .f32 0x3F800000#32)) (edgeDeg idx))
    (broadcastInDim S50000 ![] bcast_S_S50000 (id (constant S_ .f32 0x00000000#32)))

/-- E: each hyperedge's mean of its nodes' projected features. -/
def efeat (xt : (⟨S100000x128, .f32⟩ : BufTy).Contents (Elt F)) (idx : (⟨S2x1600000, .i32⟩ : BufTy).Contents (Elt F)) :
    (⟨S50000x128, .f32⟩ : BufTy).Contents (Elt F) :=
  mulf
    (Host.scatterAdd scatter_S50000x128_S1600000x1_S1600000x128_1_0_0_1
      (broadcastInDim S50000x128 ![] bcast_S_S50000x128 (constant S_ .f32 0x00000000#32))
      (col (edgeIdx idx))
      (Host.gather gather_S100000x128_S1600000x1_S1600000x128_1_0_n_n_0_1_1128 xt (col (wrap 100000#32 (nodeIdx idx)))))
    (broadcastInDim S50000x128 ![0, 1] bcast_S50000x1_S50000x128_0_1
      (broadcastInDim S50000x1 ![0] bcast_S50000_S50000x1_0 (binv idx)))

/-- A: each node's sum of its hyperedges' features. -/
def agg (xt : (⟨S100000x128, .f32⟩ : BufTy).Contents (Elt F)) (idx : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (col (nodeIdx idx))
    (Host.gather gather_S50000x128_S1600000x1_S1600000x128_1_0_n_n_0_1_1128 (efeat xt idx) (col (wrap 50000#32 (edgeIdx idx))))

end Cert.KernelIdeal.Chain

end
-- ==== Proof.FinOps.lean ====
/-
  Real-valued arrays stay real-valued through the operations of the shared host stretch: a gather reads one entry of
  its operand, a scatter-add adds finitely many entries to one, a product and a sum of reals are real, and the guarded
  inverse is 1 / D where D is a positive real and 0 elsewhere.
-/
import proofs.«144120_j55035710931434_1_alg».proof.Proof.Spec
import proofs.«144120_j55035710931434_1_alg».proof.Proof.KChain
import Idealize.ShloMosaic.Lib.IdealHost

noncomputable section

open scoped BigOperators

namespace Cert.Spec

open Idealize.ShloMosaic Idealize.ShloMosaic.ValueIdx

/-- A product of two reals is real. -/
private theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A sum of two reals is real. -/
private theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- A finite sum of reals is real: by induction on the index set, each step one sum of two reals. -/
private theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih (fun i hi => h i (Finset.mem_insert_of_mem hi)))

/-- The projection of real arrays is real. -/
theorem xw_allReal (x : SNC.Idx → EReal) (w : SCC.Idx → EReal) (hx : AllReal x) (hw : AllReal w) : AllReal (xw x w) := by
  intro i
  unfold xw
  exact real_sum _ _ (fun k _ => real_mul (hx _) (hw _))

/-- r = a · d + b of real arrays is real. -/
theorem raw1_allReal (a : SNC.Idx → EReal) (d : SN.Idx → EReal) (b : SC.Idx → EReal)
    (ha : AllReal a) (hd : AllReal d) (hb : AllReal b) : AllReal (raw1 a d b) := by
  intro i
  unfold raw1
  exact real_add (real_mul (ha _) (hd _)) (hb _)

end Cert.Spec

namespace Cert.KernelIdeal.Chain

open Idealize.ShloMosaic Cert.KernelIdeal Cert.Spec

/-- A gather reads one entry of its operand at every result index. -/
private theorem gather_allReal {s si t : Shape} {w : Nat} (d : GatherDims s si t) (x : s.Idx → EReal) (idx : IVec si w)
    (hx : AllReal x) : AllReal (Host.gather d x idx) :=
  fun _ => hx _

/-- A scatter-add is, at each index, the operand's entry plus a finite sum of update entries. -/
private theorem scatterAdd_allReal {s si u : Shape} {w : Nat} {φ : FTy} (d : ScatterDims s si u) (x : FVec Ideal s φ)
    (idx : IVec si w) (upd : FVec Ideal u φ) (hx : AllReal x) (hu : AllReal upd) :
    AllReal (Host.scatterAdd d x idx upd) :=
  fun i => real_add (hx i) (real_sum _ _ (fun j _ => hu j))

/-- A broadcast reads one entry of its operand at every result index. -/
private theorem bcast_allReal {s t : Shape} (dims : Fin s.rank → Fin t.rank) (h : s.BroadcastsInDim t dims)
    (x : s.Idx → EReal) (hx : AllReal x) : AllReal (broadcastInDim t dims h x) :=
  fun _ => hx _

/-- The constant array of the f32 zero word is 0 everywhere. -/
private theorem const_zero_allReal (s : Shape) : AllReal (constant (F := Ideal) s .f32 0x00000000#32) :=
  fun _ => ⟨0, Ideal.ofBits_zero_f32.trans EReal.coe_zero.symm⟩

/-- The constant array of the f32 word of 1.0 is 1 everywhere. -/
private theorem const_one_allReal (s : Shape) : AllReal (constant (F := Ideal) s .f32 0x3F800000#32) :=
  fun _ => ⟨1, Ideal.ofBits_one_f32.trans EReal.coe_one.symm⟩

/-- An entrywise product of real arrays is real. -/
private theorem mulf_allReal {s : Shape} {φ : FTy} (a b : FVec Ideal s φ) (ha : AllReal a) (hb : AllReal b) :
    AllReal (mulf a b) :=
  fun i => real_mul (ha i) (hb i)

/-- The guarded quotient at one entry: where the real d exceeds 0 it is nonzero and o / d = o · (1 / d) is real;
    elsewhere the value is the real fallback. -/
private theorem guard_real {d o z z' : EReal} (hd : ∃ r : ℝ, d = (r : EReal)) (hz : z = 0)
    (ho : ∃ r : ℝ, o = (r : EReal)) (hz' : ∃ r : ℝ, z' = (r : EReal)) :
    ∃ r : ℝ, Scalar.select (Ideal.cmp .ogt d z) (Ideal.div o d) z' = (r : EReal) := by
  obtain ⟨r, rfl⟩ := hd
  subst hz
  by_cases h : (0 : EReal) < (r : EReal)
  · have hr : r ≠ 0 := by
      intro h0
      rw [h0, EReal.coe_zero] at h
      exact lt_irrefl _ h
    have hc : Ideal.cmp .ogt (r : EReal) 0 = 1#1 := by
      simp only [Ideal.cmp, h, decide_true, BitVec.ofBool_true]
      rfl
    rw [hc, ValueIdx.select_one, Ideal.div_coe hr]
    exact real_mul ho ⟨_, rfl⟩
  · have hc : Ideal.cmp .ogt (r : EReal) 0 = 0#1 := by
      simp only [Ideal.cmp, h, decide_false, BitVec.ofBool_false]
      rfl
    rw [hc, ValueIdx.select_zero]
    exact hz'

/-- The guarded inverse of a real array is real, whichever branch each entry takes. -/
private theorem guardedInv_allReal {s : Shape} (D z o z' : FVec Ideal s .f32) (hD : AllReal D) (hz : ∀ j, z j = 0)
    (ho : AllReal o) (hz' : AllReal z') : AllReal (select (cmpf .ogt D z) (Host.divf o D) z') :=
  fun j => guard_real (hD j) (hz j) (ho j) (hz' j)

/-- The weighted degrees are real whenever the weights are. -/
private theorem deg_allReal (idx : (⟨S2x1600000, .i32⟩ : BufTy).Contents (Elt Ideal))
    (w : (⟨S50000, .f32⟩ : BufTy).Contents (Elt Ideal)) (hw : AllReal w) : AllReal (deg (F := Ideal) idx w) := by
  unfold deg
  exact scatterAdd_allReal _ _ _ _ (bcast_allReal _ _ _ (const_zero_allReal _)) (gather_allReal _ _ _ hw)

/-- The inverse degrees are real whenever the weights are. -/
theorem dinv_allReal (idx : (⟨S2x1600000, .i32⟩ : BufTy).Contents (Elt Ideal)) (w : (⟨S50000, .f32⟩ : BufTy).Contents (Elt Ideal))
    (hw : AllReal w) : AllReal (dinv (F := Ideal) idx w) := by
  unfold dinv
  exact guardedInv_allReal _ _ _ _ (deg_allReal idx w hw) (fun _ => Ideal.ofBits_zero_f32)
    (bcast_allReal _ _ _ (const_one_allReal _)) (bcast_allReal _ _ _ (const_zero_allReal _))

/-- The hyperedge sizes are real: a scatter-add of ones into zeros. -/
private theorem edgeDeg_allReal (idx : (⟨S2x1600000, .i32⟩ : BufTy).Contents (Elt Ideal)) :
    AllReal (edgeDeg (F := Ideal) idx) := by
  unfold edgeDeg
  exact scatterAdd_allReal _ _ _ _ (bcast_allReal _ _ _ (const_zero_allReal _)) (bcast_allReal _ _ _ (const_one_allReal _))

/-- The inverse hyperedge sizes are real. -/
private theorem binv_allReal (idx : (⟨S2x1600000, .i32⟩ : BufTy).Contents (Elt Ideal)) :
    AllReal (binv (F := Ideal) idx) := by
  unfold binv
  exact guardedInv_allReal _ _ _ _ (edgeDeg_allReal idx) (fun _ => Ideal.ofBits_zero_f32)
    (bcast_allReal _ _ _ (const_one_allReal _)) (bcast_allReal _ _ _ (const_zero_allReal _))

/-- The hyperedge features are real whenever the projected features are. -/
private theorem efeat_allReal (xt : (⟨S100000x128, .f32⟩ : BufTy).Contents (Elt Ideal))
    (idx : (⟨S2x1600000, .i32⟩ : BufTy).Contents (Elt Ideal)) (hx : AllReal xt) : AllReal (efeat (F := Ideal) xt idx) := by
  unfold efeat
  exact mulf_allReal _ _
    (scatterAdd_allReal _ _ _ _ (bcast_allReal _ _ _ (const_zero_allReal _)) (gather_allReal _ _ _ hx))
    (bcast_allReal _ _ _ (bcast_allReal _ _ _ (binv_allReal idx)))

/-- The aggregate is real whenever the projected features are. -/
theorem agg_allReal (xt : (⟨S100000x128, .f32⟩ : BufTy).Contents (Elt Ideal)) (idx : (⟨S2x1600000, .i32⟩ : BufTy).Contents (Elt Ideal))
    (hx : AllReal xt) : AllReal (agg (F := Ideal) xt idx) := by
  unfold agg
  exact scatterAdd_allReal _ _ _ _ (bcast_allReal _ _ _ (const_zero_allReal _))
    (gather_allReal _ _ _ (efeat_allReal xt idx hx))

end Cert.KernelIdeal.Chain

end
-- ==== Proof.PreFin.lean ====
/-
  The precondition says every float input holds finite numbers: each entry's magnitude is below +infinity, so each
  entry is a real number.
-/
import proofs.«144120_j55035710931434_1_alg».proof.Defs
import proofs.«144120_j55035710931434_1_alg».proof.Proof.Gen.KernelIdeal
import proofs.«144120_j55035710931434_1_alg».proof.Proof.Gen.Pre_finite_inputs
import proofs.«144120_j55035710931434_1_alg».proof.Proof.Spec
import Idealize.ShloMosaic.Lib.ReduceAll

noncomputable section

namespace Cert.PreFin

open Idealize.ShloMosaic Idealize.SL.Sem Cert.KernelIdeal Cert.Spec

/-- The shape with no axes has exactly one index. -/
local instance : Subsingleton Cert.Pre_finite_inputs.S_.Idx := ⟨fun a b => funext fun d => d.elim0⟩

/-- An extended real whose magnitude lies strictly below +infinity (the f32 word 0x7F800000) is a real number:
    the magnitude of either infinity is +infinity itself. -/
private theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by
    simp [Ideal.ofBits, Ideal.ieee]
  rw [hinf] at h
  induction x using EReal.rec with
  | bot => simp [Ideal.cmp] at h
  | coe r => exact ⟨r, rfl⟩
  | top => simp [Ideal.cmp] at h

/-- One input, over any shape: when the conjunction over all entries of "|x| < +infinity" is true, every entry is real. -/
private theorem allReal_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf v) (broadcastInDim s ![] hb (constant Cert.Pre_finite_inputs.S_ .f32 0x7F800000#32)))
        init hr hu ValueIdx.ix0 = 1#1) :
    AllReal v := by
  intro i
  have hi := Host.reduce_andi_all _ init hr hu ValueIdx.ix0 e i
  exact real_of_abs_lt (v i) hi

/-- Under the precondition every float argument array is real-valued. -/
theorem args_allReal (m : (ℓ : Loc nD τ sig) → Buf (Elt Ideal) ℓ) (h : Cert.Pre_KernelIdeal m) (c : Dev nD) :
    AllReal (m ((c.tc : Thread nD τ).loc main_arg0))
    ∧ AllReal (m ((c.tc : Thread nD τ).loc main_arg2))
    ∧ AllReal (m ((c.tc : Thread nD τ).loc main_arg3))
    ∧ AllReal (m ((c.tc : Thread nD τ).loc main_arg4))
    ∧ AllReal (m ((c.tc : Thread nD τ).loc main_arg5))
    ∧ AllReal (m ((c.tc : Thread nD τ).loc main_arg6)) := by
  have h0 := congrFun (h c) ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allReal_of_all _ _ _ _ _ e0, allReal_of_all _ _ _ _ _ e2, allReal_of_all _ _ _ _ _ e3,
    allReal_of_all _ _ _ _ _ e4, allReal_of_all _ _ _ _ _ e5, allReal_of_all _ _ _ _ _ e6⟩

end Cert.PreFin

end
-- ==== Proof.KRegion0.lean ====
/-
  The first kernel region: each block of 5000 rows of the result is the block of x times the whole of w, so the
  array it leaves is the projection x · w, whatever the region's entry contents are.
-/
import proofs.«144120_j55035710931434_1_alg».proof.Proof.Gen.KernelIdeal.Frame
import proofs.«144120_j55035710931434_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's product at an index -/

/-- The product's left operand is read at the output's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summation index along its columns; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand is read at the summation index along its rows … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row (i 0), column k of the block of x. -/
abbrev lidx (i : S5000x128.Idx) (k : Fin 128) : S5000x128.Idx := fun a => match a with
  | ⟨0, _⟩ => ⟨(i 0).val, (i 0).isLt⟩
  | ⟨1, _⟩ => ⟨k.val, k.isLt⟩
/-- Row k, column (i 1) of w. -/
abbrev ridx (i : S5000x128.Idx) (k : Fin 128) : S128x128.Idx := fun a => match a with
  | ⟨0, _⟩ => ⟨k.val, k.isLt⟩
  | ⟨1, _⟩ => ⟨(i 1).val, (i 1).isLt⟩

/-- The body's value at an index of its block: the sum over k of x[row, k] · w[k, column] (over the extended reals the
    narrowing of the operands is the identity and the accumulator is zero). -/
theorem pay_apply (x0 : Vec Ideal S5000x128 .f32) (x1 : Vec Ideal S128x128 .f32) (i : S5000x128.Idx) :
    k0_pay1 (F := Ideal) x0 x1 i = ∑ k : Fin 128, x0 (lidx i k) * x1 (ridx i k) := by
  unfold k0_pay1
  show FloatOps.matmul dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = lidx i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = ridx i k := funext fun a => Fin.ext (by
    match a with
    | ⟨0, _⟩ => exact (rhs_axis0 _ _).trans hk
    | ⟨1, _⟩ => exact rhs_axis1 _ _)
  rw [el, er]
  rfl

/-! ## From blocks to the array -/

theorem off_zero : (![0, 0] : Fin 2 → Nat) = fun _ => 0 := funext fun a => by fin_cases a <;> rfl

/-- The windows' block indices over the grid: the block of x moves with the output's block along the rows, every column
    index is 0, w's block is always its one block, and the output's row index stays below 20. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every block of rows of the output is some point's. -/
theorem index_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the projection of the two arrays as the region finds them. -/
theorem flushed_eq (c : Dev nD) (t : Fin cfg0.N) :
    (dat0 (F := Ideal) V c).flushed 2 t
      = ((cfg0.win 2).blk t).view.read (Elt Ideal) (Cert.Spec.xw (V c main_arg0) (V c main_arg3)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e0, e1, e2, e3, e4, e5⟩ := index_facts t
  funext j
  refine (pay_apply (iblk0 V c 0 t) (iblk0 V c 1 t) j).trans ?_
  show _ = Cert.Spec.xw (V c main_arg0) (V c main_arg3) (((cfg0.win 2).blk t).view.emb j)
  unfold Cert.Spec.xw
  refine Finset.sum_congr rfl fun k _ => ?_
  have h0 : (iblk0 V c 0 t (lidx j k) : EReal) = V c main_arg0 (ix2 (n0 := 100000) (n1 := 128) ((((cfg0.win 2).blk t).view.emb j) 0) k) := by
    show V c main_arg0 (((cfg0.win 0).blk t).view.emb (lidx j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : (iblk0 V c 1 t (ridx j k) : EReal) = V c main_arg3 (ix2 (n0 := 128) (n1 := 128) k ((((cfg0.win 2).blk t).view.emb j) 1)) := by
    show V c main_arg3 (((cfg0.win 1).blk t).view.emb (ridx j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) h0 h1

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every index of the array is in some point's block: row r is in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the projection of the two input arrays as the region finds them. -/
theorem final (c : Dev nD) :
    (dat0 (F := Ideal) V c).arrAt 2 cfg0.N = Cert.Spec.xw (V c main_arg0) (V c main_arg3) :=
  (dat0 (F := Ideal) V c).arrAt_eq_of_cover 2 (Cert.Spec.xw (V c main_arg0) (V c main_arg3))
    (fun t _ => flushed_eq V c t) cover

end Cert.KernelIdeal.Region0

end
-- ==== Proof.KRegion1.lean ====
/-
  The second kernel region: per block of 5000 rows it writes r = a · d + b (d a column, b a row) and adds the block's
  column sums of r and of r² into two rows that start at zero at the first block; after the last block the rows hold
  the column sums over all 100000 rows.

  The road. What each grid point leaves in the three outputs' buffers is one covering store each (at the first point
  the two rows are first set to zero and read back), so the buffers hold the body's arithmetic of the input blocks.
  Read at an element over the extended reals: r at (p, q) of block t is row 5000 t + p of the specification's r; the
  row of sums at column q is the row before plus the sum over the block's 5000 rows. By induction on the point the two
  rows hold the sums over rows 0 … 5000 (t + 1) − 1, and after point 19 over all rows. The array r is written back
  block by block and the blocks tile it; the two rows are written back once, after the last point.
-/
import proofs.«144120_j55035710931434_1_alg».proof.Proof.Gen.KernelIdeal.Frame
import proofs.«144120_j55035710931434_1_alg».proof.Proof.Spec
import Idealize.ShloMosaic.Lib.Pipeline.Value
import Idealize.ShloMosaic.Lib.ValueLayout
import Idealize.ShloMosaic.Lib.Tactic
import Idealize.ShloMosaic.PureOps.Ideal.Laws
import Mathlib.Data.Fintype.BigOperators
import Mathlib.Algebra.BigOperators.Group.Finset.Basic

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## What each case of the body leaves in the outputs' buffers -/

section Pieces
variable {F : FTy → Type} [FloatOps F]

private theorem hz : (![0, 0] : Fin 2 → Nat) = fun _ => 0 := funext fun a => by fin_cases a <;> rfl

/-- The first block's r: the one covering store's payload, its loads reading the whole input buffers. -/
private theorem out_A_3 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x1 .f32) (x2 : Vec F S1x128 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  sl_unfold_words
  rw [View.canon_unit_zero hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

/-- The first block's row of sums: the zero row is stored, read back, and the block's column sums are added to it. -/
private theorem out_A_4 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x1 .f32) (x2 : Vec F S1x128 .f32) :
    out1_A_4 c i a1 h1 a2 h2 a3 h3 a4 h4 a5 h5 a6 h6 hc x0 x1 x2 = k1_pay4 x0 x1 x2 k1_pay1 := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

/-- The first block's row of sums of squares, likewise. -/
private theorem out_A_5 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond1_0 i)
    (x0 : Vec F S5000x128 .f32) (x1 : Vec F S5000x1 .f32) (x2 : Vec F S1x128 .f32) :
    out1_A_5 c i a1 h1 a2 h2 a3 h3 a4 h4 a5 h5 a6 h6 hc x0 x1 x2 = k1_pay5 x0 x1 x2 k1_pay2 := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

/-- A later block's r. -/
private theorem out_B_3 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  sl_unfold_words
  rw [View.canon_unit_zero hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

/-- A later block's row of sums: the block's column sums added to the row the block before left. -/
private theorem out_B_4 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  sl_unfold_words
  rw [View.canon_unit_zero hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

/-- A later block's row of sums of squares, likewise. -/
private theorem out_B_5 (c : Dev nD) (i : grid1.Coords) (a1 : Memref sig .tc .vmem S5000x128 .f32) (h1 : a1.IsWhole) (a2 : Memref sig .tc .vmem S5000x1 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond1_0 i)
    (x0 : Vec F S5000x128 .f32) (x1 : Vec F S5000x1 .f32) (x2 : Vec F S1x128 .f32) (xo4 xo5 : Vec F S1x128 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  sl_unfold_words
  rw [View.canon_unit_zero hz]
  simp only [View.readAt_eq_ld, h1.read_unread, h2.read_unread, h3.read_unread, h5.read_unread, h6.read_unread, View.ld_unit_zero (S := S5000x128) hz, View.ld_unit_zero (S := S5000x1) hz, View.ld_unit_zero (S := S1x128) hz]

end Pieces

/-! ## The body's arithmetic at an element, over the extended reals -/

section Values

/-- A column [a, 1] broadcast to [a, b] reads, at (p, c), the column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's r at an element: a[p, q] · d[p] + b[q]. -/
private theorem pay3_apply (x0 : Vec Ideal S5000x128 .f32) (x1 : Vec Ideal S5000x1 .f32) (x2 : Vec Ideal S1x128 .f32)
    (p : Fin 5000) (q : Fin 128) :
    k1_pay3 (F := Ideal) x0 x1 x2 (ix2 p q) = x0 (ix2 p q) * x1 (ix2 p (0 : Fin 1)) + x2 (ix2 (0 : Fin 1) q) := by
  unfold k1_pay3
  simp only [shapeCast_self]
  show x0 (ix2 p q) * broadcastTo S5000x128 x1 broadcasts_S5000x1_S5000x128 (ix2 p q)
      + broadcastTo S5000x128 x2 broadcasts_S1x128_S5000x128 (ix2 p q) = _
  rw [broadcastTo_a1_ab_apply, broadcastTo_1b_ab_apply]

/-- The row index with a block row inserted in front is the block's (row, column). -/
private theorem lift_eq (p : Fin 5000) (q : Fin 128) :
    reduces_S5000x128_S128.lift (ix1 q) p = ix2 p q := by
  funext a
  match a with
  | ⟨0, _⟩ => rfl
  | ⟨1, _⟩ => rfl

/-- The updated row of sums at a column: the row before plus the block's column sum. -/
private theorem pay4_apply (x0 : Vec Ideal S5000x128 .f32) (x1 : Vec Ideal S5000x1 .f32) (x2 : Vec Ideal S1x128 .f32)
    (acc : Vec Ideal S1x128 .f32) (q : Fin 128) :
    k1_pay4 (F := Ideal) x0 x1 x2 acc (ix2 (0 : Fin 1) q)
      = acc (ix2 (0 : Fin 1) q) + ∑ p : Fin 5000, k1_pay3 (F := Ideal) x0 x1 x2 (ix2 p q) := by
  unfold k1_pay4
  simp only [shapeCast_self]
  refine (addf_apply _ _ _).trans (congrArg (acc (ix2 (0 : Fin 1) q) + ·) ?_)
  refine (shapeCast_a_1a_apply _ _ (0 : Fin 1) q).trans ?_
  refine (Ideal.multiReduction_add_single _ _ _ _ _ (ix1 q)).trans ?_
  exact Finset.sum_congr rfl fun p _ => congrArg (k1_pay3 (F := Ideal) x0 x1 x2) (lift_eq p q)

/-- The updated row of sums of squares at a column. -/
private theorem pay5_apply (x0 : Vec Ideal S5000x128 .f32) (x1 : Vec Ideal S5000x1 .f32) (x2 : Vec Ideal S1x128 .f32)
    (acc : Vec Ideal S1x128 .f32) (q : Fin 128) :
    k1_pay5 (F := Ideal) x0 x1 x2 acc (ix2 (0 : Fin 1) q)
      = acc (ix2 (0 : Fin 1) q) + ∑ p : Fin 5000, k1_pay3 (F := Ideal) x0 x1 x2 (ix2 p q) * k1_pay3 (F := Ideal) x0 x1 x2 (ix2 p q) := by
  unfold k1_pay5
  simp only [shapeCast_self]
  refine (addf_apply _ _ _).trans (congrArg (acc (ix2 (0 : Fin 1) q) + ·) ?_)
  refine (shapeCast_a_1a_apply _ _ (0 : Fin 1) q).trans ?_
  refine (Ideal.multiReduction_add_single _ _ _ _ _ (ix1 q)).trans ?_
  exact Finset.sum_congr rfl fun p _ =>
    congrArg (fun i => k1_pay3 (F := Ideal) x0 x1 x2 i * k1_pay3 (F := Ideal) x0 x1 x2 i) (lift_eq p q)

/-- The zero row at a column. -/
private theorem pay1_apply (j : S1x128.Idx) : k1_pay1 (F := Ideal) j = 0 := Ideal.ofBits_zero_f32

private theorem pay2_apply (j : S1x128.Idx) : k1_pay2 (F := Ideal) j = 0 := Ideal.ofBits_zero_f32

end Values

/-! ## The input blocks at an element -/

section Blocks

variable (V : (c : Dev nD) → (b : Ref sig .tc) → Buf (Elt Ideal) ((c : Thread nD τ).loc b))

/-- The three input arrays and their blocks at a grid point, at their literal types. -/
private abbrev agg (c : Dev nD) : Vec Ideal S100000x128 .f32 := V c main_v51
private abbrev dcol (c : Dev nD) : Vec Ideal S100000x1 .f32 := V c main_v52
private abbrev brow (c : Dev nD) : Vec Ideal S1x128 .f32 := V c main_v53
private abbrev ablk (c : Dev nD) (t : Fin cfg1.N) : Vec Ideal S5000x128 .f32 := iblk1 V c 0 t
private abbrev dblk (c : Dev nD) (t : Fin cfg1.N) : Vec Ideal S5000x1 .f32 := iblk1 V c 1 t
private abbrev bblk (c : Dev nD) (t : Fin cfg1.N) : Vec Ideal S1x128 .f32 := iblk1 V c 2 t

/-- The index maps, decided over the grid: the row blocks move with the point, the rows stay. -/
private theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

private theorem lt20 (t : Fin cfg1.N) : t.val < 20 := lt_of_lt_of_eq t.isLt (show cfg1.N = 20 from N_1)

/-- Block t of a: rows 5000 t … 5000 t + 4999. -/
private theorem ablk_apply (c : Dev nD) (t : Fin cfg1.N) (p : Fin 5000) (q : Fin 128) (hb : 5000 * t.val + p.val < 100000) :
    ablk V c t (ix2 p q) = agg V c (ix2 (n0 := 100000) (n1 := 128) ⟨5000 * t.val + p.val, hb⟩ q) := by
  obtain ⟨e0, e1, -⟩ := idx_facts t
  show ((cfg1.win 0).blk t).view.read (Elt Ideal) (V c (Pipeline.arrRef spec1 0)) (ix2 p q) = _
  rw [View.read_apply]
  show V c main_v51 _ = V c main_v51 _
  congr 1
  funext a; apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

/-- Block t of the column d. -/
private theorem dblk_apply (c : Dev nD) (t : Fin cfg1.N) (p : Fin 5000) (hb : 5000 * t.val + p.val < 100000) :
    dblk V c t (ix2 p (0 : Fin 1)) = dcol V c (ix2 (n0 := 100000) (n1 := 1) ⟨5000 * t.val + p.val, hb⟩ (0 : Fin 1)) := by
  obtain ⟨-, -, e0, e1, -⟩ := idx_facts t
  show ((cfg1.win 1).blk t).view.read (Elt Ideal) (V c (Pipeline.arrRef spec1 1)) (ix2 p (0 : Fin 1)) = _
  rw [View.read_apply]
  show V c main_v52 _ = V c main_v52 _
  congr 1
  funext a; apply Fin.ext
  match a with
  | ⟨0, _⟩ => show win1_1.index t (0 : Fin 2) * 5000 + 1 * p.val = 5000 * t.val + p.val; omega
  | ⟨1, _⟩ => show win1_1.index t (1 : Fin 2) * 1 + 1 * 0 = 0; omega

/-- The one block of the row b is the row. -/
private theorem bblk_apply (c : Dev nD) (t : Fin cfg1.N) (q : Fin 128) :
    bblk V c t (ix2 (0 : Fin 1) q) = brow V c (ix2 (n0 := 1) (n1 := 128) (0 : Fin 1) q) := by
  obtain ⟨-, -, -, -, e0, e1, -⟩ := idx_facts t
  show ((cfg1.win 2).blk t).view.read (Elt Ideal) (V c (Pipeline.arrRef spec1 2)) (ix2 (0 : Fin 1) q) = _
  rw [View.read_apply]
  show V c main_v53 _ = V c main_v53 _
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega

end Blocks

/-! ## The outputs' buffers after each point -/

section Points

variable {F : FTy → Type} [FloatOps F]
variable (V : (c : Dev nD) → (b : Ref sig .tc) → Buf (Elt F) ((c : Thread nD τ).loc b))

/-- After any point the first output's buffer holds the block's r. -/
private theorem outs_3 (c : Dev nD) (t : Fin cfg1.N) :
    (outsAt1 V c t.val t.isLt).1 = k1_pay3 (iblk1 V c 0 t) (iblk1 V c 1 t) (iblk1 V c 2 t) := by
  by_cases h : t.val % 20 = 0
  ·
    rw [outsAt1_A V c t h]; dsimp only
    exact out_A_3 (F := F) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h) (iblk1 V c 0 t) (iblk1 V c 1 t) (iblk1 V c 2 t)
  ·
    rw [outsAt1_B V c t h]; dsimp only
    exact out_B_3 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (fun h' => h ((hcond1_0 t).mp h')) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After the first point the row of sums is the zero row plus the block's column sums. -/
private theorem outs_4_first (c : Dev nD) (t : Fin cfg1.N) (h : t.val % 20 = 0) :
    (outsAt1 V c t.val t.isLt).2.1 = k1_pay4 (iblk1 V c 0 t) (iblk1 V c 1 t) (iblk1 V c 2 t) k1_pay1 := by
    rw [outsAt1_A V c t h]; dsimp only
    exact out_A_4 (F := F) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h) (iblk1 V c 0 t) (iblk1 V c 1 t) (iblk1 V c 2 t)

/-- After a later point it is the row the point before left plus the block's column sums. -/
private theorem outs_4_later (c : Dev nD) (t : Fin cfg1.N) (h : ¬t.val % 20 = 0) :
    (outsAt1 V c t.val t.isLt).2.1 = k1_pay4 (iblk1 V c 0 t) (iblk1 V c 1 t) (iblk1 V c 2 t) (outsAt1 V c (t.val - 1) (Nat.lt_of_le_of_lt (Nat.sub_le _ _) t.isLt)).2.1 := by
    rw [outsAt1_B V c t h]; dsimp only
    exact out_B_4 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (fun h' => h ((hcond1_0 t).mp h')) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- The same two for the row of sums of squares. -/
private theorem outs_5_first (c : Dev nD) (t : Fin cfg1.N) (h : t.val % 20 = 0) :
    (outsAt1 V c t.val t.isLt).2.2 = k1_pay5 (iblk1 V c 0 t) (iblk1 V c 1 t) (iblk1 V c 2 t) k1_pay2 := by
    rw [outsAt1_A V c t h]; dsimp only
    exact out_A_5 (F := F) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h) (iblk1 V c 0 t) (iblk1 V c 1 t) (iblk1 V c 2 t)

private theorem outs_5_later (c : Dev nD) (t : Fin cfg1.N) (h : ¬t.val % 20 = 0) :
    (outsAt1 V c t.val t.isLt).2.2 = k1_pay5 (iblk1 V c 0 t) (iblk1 V c 1 t) (iblk1 V c 2 t) (outsAt1 V c (t.val - 1) (Nat.lt_of_le_of_lt (Nat.sub_le _ _) t.isLt)).2.2 := by
    rw [outsAt1_B V c t h]; dsimp only
    exact out_B_5 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (fun h' => h ((hcond1_0 t).mp h')) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

end Points

/-! ## The two rows after each point: the sums over the rows so far -/

section Invariant

open scoped BigOperators

variable (V : (c : Dev nD) → (b : Ref sig .tc) → Buf (Elt Ideal) ((c : Thread nD τ).loc b))

/-- r as the specification writes it, of the arrays the region finds. -/
private abbrev R (c : Dev nD) : Cert.Spec.SNC.Idx → EReal := Cert.Spec.raw (V c main_v51) (V c main_v52) (V c main_v53)

/-- Row n of r at column q, by the row's number; zero past the array's last row. -/
private def Rn (c : Dev nD) (n : ℕ) (q : Fin 128) : EReal :=
  if h : n < 100000 then R V c (ix2 (n0 := 100000) (n1 := 128) ⟨n, h⟩ q) else 0

/-- The block's r at (p, q) is row 5000 t + p of r. -/
private theorem blk_r (c : Dev nD) (t : Fin cfg1.N) (p : Fin 5000) (q : Fin 128) :
    k1_pay3 (F := Ideal) (ablk V c t) (dblk V c t) (bblk V c t) (ix2 p q) = Rn V c (5000 * t.val + p.val) q := by
  have ht := lt20 t
  have hb : 5000 * t.val + p.val < 100000 := by have := p.isLt; omega
  rw [pay3_apply, ablk_apply V c t p q hb, dblk_apply V c t p hb, bblk_apply V c t q]
  unfold Rn
  rw [dif_pos hb]
  rfl

/-- The block's column sum is the sum of rows 5000 t … 5000 t + 4999 of r. -/
private theorem blk_sum (c : Dev nD) (t : Fin cfg1.N) (q : Fin 128) :
    ∑ p : Fin 5000, k1_pay3 (F := Ideal) (ablk V c t) (dblk V c t) (bblk V c t) (ix2 p q)
      = ∑ r ∈ Finset.range 5000, Rn V c (5000 * t.val + r) q := by
  rw [← Fin.sum_univ_eq_sum_range (fun r => Rn V c (5000 * t.val + r) q) 5000]
  exact Finset.sum_congr rfl fun p _ => blk_r V c t p q

private theorem blk_sumsq (c : Dev nD) (t : Fin cfg1.N) (q : Fin 128) :
    ∑ p : Fin 5000, k1_pay3 (F := Ideal) (ablk V c t) (dblk V c t) (bblk V c t) (ix2 p q)
        * k1_pay3 (F := Ideal) (ablk V c t) (dblk V c t) (bblk V c t) (ix2 p q)
      = ∑ r ∈ Finset.range 5000, Rn V c (5000 * t.val + r) q * Rn V c (5000 * t.val + r) q := by
  rw [← Fin.sum_univ_eq_sum_range (fun r => Rn V c (5000 * t.val + r) q * Rn V c (5000 * t.val + r) q) 5000]
  exact Finset.sum_congr rfl fun p _ => by rw [blk_r V c t p q]

/-- THE INVARIANT: after point n the two rows hold, at each column, the sums of r and of r² over the rows of
    blocks 0 … n, that is rows 0 … 5000 (n + 1) − 1. By induction on the point: the first point starts from the
    zero row, each later one adds its block's 5000 rows to what the point before left. -/
private theorem inv (c : Dev nD) : ∀ (n : ℕ) (h : n < cfg1.N) (q : Fin 128),
    (outsAt1 V c n h).2.1 (ix2 (0 : Fin 1) q) = ∑ i ∈ Finset.range (5000 * (n + 1)), Rn V c i q
    ∧ (outsAt1 V c n h).2.2 (ix2 (0 : Fin 1) q) = ∑ i ∈ Finset.range (5000 * (n + 1)), Rn V c i q * Rn V c i q
  | 0, h, q => by
    constructor
    · refine (congrFun (outs_4_first V c ⟨0, h⟩ rfl) (ix2 (0 : Fin 1) q)).trans ?_
      refine (pay4_apply (ablk V c ⟨0, h⟩) (dblk V c ⟨0, h⟩) (bblk V c ⟨0, h⟩) (k1_pay1 (F := Ideal)) q).trans ?_
      rw [pay1_apply, zero_add, blk_sum]
      simp only [Nat.mul_zero, Nat.zero_add, Nat.mul_one]
    · refine (congrFun (outs_5_first V c ⟨0, h⟩ rfl) (ix2 (0 : Fin 1) q)).trans ?_
      refine (pay5_apply (ablk V c ⟨0, h⟩) (dblk V c ⟨0, h⟩) (bblk V c ⟨0, h⟩) (k1_pay2 (F := Ideal)) q).trans ?_
      rw [pay2_apply, zero_add, blk_sumsq]
      simp only [Nat.mul_zero, Nat.zero_add, Nat.mul_one]
  | n + 1, h, q => by
    have hN : cfg1.N = 20 := N_1
    have hB : ¬(⟨n + 1, h⟩ : Fin cfg1.N).val % 20 = 0 := by dsimp only; omega
    obtain ⟨ih1, ih2⟩ := inv c n (Nat.lt_of_succ_lt h) q
    have hsplit : 5000 * (n + 1 + 1) = 5000 * (n + 1) + 5000 := by omega
    constructor
    · refine (congrFun (outs_4_later V c ⟨n + 1, h⟩ hB) (ix2 (0 : Fin 1) q)).trans ?_
      refine (pay4_apply (ablk V c ⟨n + 1, h⟩) (dblk V c ⟨n + 1, h⟩) (bblk V c ⟨n + 1, h⟩) _ q).trans ?_
      rw [blk_sum, hsplit, Finset.sum_range_add]
      show (outsAt1 V c n _).2.1 (ix2 (0 : Fin 1) q) + _ = _
      rw [ih1]
    · refine (congrFun (outs_5_later V c ⟨n + 1, h⟩ hB) (ix2 (0 : Fin 1) q)).trans ?_
      refine (pay5_apply (ablk V c ⟨n + 1, h⟩) (dblk V c ⟨n + 1, h⟩) (bblk V c ⟨n + 1, h⟩) _ q).trans ?_
      rw [blk_sumsq, hsplit, Finset.sum_range_add]
      show (outsAt1 V c n _).2.2 (ix2 (0 : Fin 1) q) + _ = _
      rw [ih2]

/-- All 100000 rows, by number, are the rows of r. -/
private theorem sum_all (c : Dev nD) (q : Fin 128) :
    ∑ i ∈ Finset.range 100000, Rn V c i q = ∑ n : Fin 100000, R V c (ix2 (n0 := 100000) (n1 := 128) n q) := by
  rw [← Fin.sum_univ_eq_sum_range (fun i => Rn V c i q) 100000]
  exact Finset.sum_congr rfl fun n _ => by unfold Rn; rw [dif_pos n.isLt]

private theorem sumsq_all (c : Dev nD) (q : Fin 128) :
    ∑ i ∈ Finset.range 100000, Rn V c i q * Rn V c i q
      = ∑ n : Fin 100000, R V c (ix2 (n0 := 100000) (n1 := 128) n q) * R V c (ix2 (n0 := 100000) (n1 := 128) n q) := by
  rw [← Fin.sum_univ_eq_sum_range (fun i => Rn V c i q * Rn V c i q) 100000]
  exact Finset.sum_congr rfl fun n _ => by unfold Rn; rw [dif_pos n.isLt]

end Invariant

/-! ## What is written back, and where -/

section Finals

open scoped BigOperators

variable (V : (c : Dev nD) → (b : Ref sig .tc) → Buf (Elt Ideal) ((c : Thread nD τ).loc b))

/-- Point t writes back block t of r. -/
private theorem flushed_3 (c : Dev nD) (t : Fin cfg1.N) (hf : (cfg1.win 3).flush t = true) :
    (dat1 (F := Ideal) V c).flushed 3 t = ((cfg1.win 3).blk t).view.read (Elt Ideal) (R V c) := by
  show (cfg1.win 3).cut (grid1.coords t) ((dat1 (F := Ideal) V c).after 3 t) = _
  rw [after1_3, outs_3]
  funext j
  obtain ⟨p, q, rfl⟩ : ∃ (p : Fin 5000) (q : Fin 128), j = ix2 p q := ⟨j 0, j 1, eq_ix2 j⟩
  have ht := lt20 t
  have hb : 5000 * t.val + p.val < 100000 := by have := p.isLt; omega
  obtain ⟨-, -, -, -, -, -, e0, e1, -⟩ := idx_facts t
  rw [View.read_apply]
  show k1_pay3 (F := Ideal) (ablk V c t) (dblk V c t) (bblk V c t) (ix2 p q)
    = R V c (((cfg1.win 3).blk t).view.emb (ix2 p q))
  rw [blk_r]
  unfold Rn
  rw [dif_pos hb]
  congr 1
  funext a; apply Fin.ext
  match a with
  | ⟨0, _⟩ => show 5000 * t.val + p.val = win1_3.index t (0 : Fin 2) * 5000 + 1 * p.val; omega
  | ⟨1, _⟩ => show q.val = win1_3.index t (1 : Fin 2) * 128 + 1 * q.val; omega

/-- Every row of the array lies in the block of the point that is its number divided by 5000. -/
private theorem cover_3 (i : S100000x128.Idx) :
    ∃ t : Fin cfg1.N, (cfg1.win 3).flush t = true ∧ i ∈ ((cfg1.win 3).blk t).view.set := by
  have h0 : (i 0).val < 100000 := (i 0).isLt
  have h1 : (i 1).val < 128 := (i 1).isLt
  have hN : cfg1.N = 20 := N_1
  have hlt : (i 0).val / 5000 < cfg1.N := by rw [hN]; omega
  obtain ⟨-, -, -, -, -, -, e0, e1, -⟩ := idx_facts ⟨(i 0).val / 5000, hlt⟩
  have e0' : win1_3.index ⟨(i 0).val / 5000, hlt⟩ (0 : Fin 2) = (i 0).val / 5000 := e0
  refine ⟨⟨(i 0).val / 5000, hlt⟩, flush1_3 _, ?_⟩
  show i ∈ ((View.whole main_v54_0).slice (win1_3.rect ⟨(i 0).val / 5000, hlt⟩)).set
  rw [View.set_slice_whole, Rect.mem_set_unit]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

/-- The rows' one block, at offsets zero, is the whole row: every column lies in the last point's block. -/
private theorem cover_4 (i : S1x128.Idx) :
    ∃ t : Fin cfg1.N, (cfg1.win 4).flush t = true ∧ i ∈ ((cfg1.win 4).blk t).view.set := by
  have h0 : (i 0).val < 1 := (i 0).isLt
  have h1 : (i 1).val < 128 := (i 1).isLt
  have hN : cfg1.N = 20 := N_1
  have hlt : 19 < cfg1.N := by rw [hN]; omega
  obtain ⟨-, -, -, -, -, -, -, -, e0, e1, -⟩ := idx_facts ⟨19, hlt⟩
  refine ⟨⟨19, hlt⟩, (flush1_4 ⟨19, hlt⟩).mpr rfl, ?_⟩
  show i ∈ ((View.whole main_v54_1).slice (win1_4.rect ⟨19, hlt⟩)).set
  rw [View.set_slice_whole, Rect.mem_set_unit]
  intro a
  match a with
  | ⟨0, _⟩ =>
    show win1_4.index ⟨19, hlt⟩ (0 : Fin 2) * 1 ≤ (i 0).val ∧ (i 0).val < win1_4.index ⟨19, hlt⟩ (0 : Fin 2) * 1 + 1
    omega
  | ⟨1, _⟩ =>
    show win1_4.index ⟨19, hlt⟩ (1 : Fin 2) * 128 ≤ (i 1).val ∧ (i 1).val < win1_4.index ⟨19, hlt⟩ (1 : Fin 2) * 128 + 128
    omega

private theorem cover_5 (i : S1x128.Idx) :
    ∃ t : Fin cfg1.N, (cfg1.win 5).flush t = true ∧ i ∈ ((cfg1.win 5).blk t).view.set := by
  have h0 : (i 0).val < 1 := (i 0).isLt
  have h1 : (i 1).val < 128 := (i 1).isLt
  have hN : cfg1.N = 20 := N_1
  have hlt : 19 < cfg1.N := by rw [hN]; omega
  obtain ⟨-, -, -, -, -, -, -, -, -, -, e0, e1⟩ := idx_facts ⟨19, hlt⟩
  refine ⟨⟨19, hlt⟩, (flush1_5 ⟨19, hlt⟩).mpr rfl, ?_⟩
  show i ∈ ((View.whole main_v54_2).slice (win1_5.rect ⟨19, hlt⟩)).set
  rw [View.set_slice_whole, Rect.mem_set_unit]
  intro a
  match a with
  | ⟨0, _⟩ =>
    show win1_5.index ⟨19, hlt⟩ (0 : Fin 2) * 1 ≤ (i 0).val ∧ (i 0).val < win1_5.index ⟨19, hlt⟩ (0 : Fin 2) * 1 + 1
    omega
  | ⟨1, _⟩ =>
    show win1_5.index ⟨19, hlt⟩ (1 : Fin 2) * 128 ≤ (i 1).val ∧ (i 1).val < win1_5.index ⟨19, hlt⟩ (1 : Fin 2) * 128 + 128
    omega

/-- The one write-back of the row of sums, after the last point, writes the column sums of r over all rows. -/
private theorem flushed_4 (c : Dev nD) (t : Fin cfg1.N) (hf : (cfg1.win 4).flush t = true) :
    (dat1 (F := Ideal) V c).flushed 4 t = ((cfg1.win 4).blk t).view.read (Elt Ideal) (Cert.Spec.colsum (R V c)) := by
  have ht := lt20 t
  have h19 : t.val = 19 := by have := (flush1_4 t).mp hf; omega
  obtain ⟨-, -, -, -, -, -, -, -, e0, e1, -⟩ := idx_facts t
  have hz' : (fun a => win1_4.index t a * main_v54_1.ty.shape.size a) = fun _ => 0 := funext fun a => by
    match a with
    | ⟨0, _⟩ => show win1_4.index t (0 : Fin 2) * 1 = 0; omega
    | ⟨1, _⟩ => show win1_4.index t (1 : Fin 2) * 128 = 0; omega
  show (cfg1.win 4).cut (grid1.coords t) ((dat1 (F := Ideal) V c).after 4 t) = _
  rw [after1_4]
  refine Eq.trans ?_ (Memref.read_access_unit_zero (Elt Ideal) main_v54_1 hz' (fun a => by rw [congrFun hz' a]; simp)
    (Cert.Spec.colsum (R V c))).symm
  funext j
  obtain ⟨u, q, rfl⟩ : ∃ (u : Fin 1) (q : Fin 128), j = ix2 u q := ⟨j 0, j 1, eq_ix2 j⟩
  obtain rfl : u = 0 := Subsingleton.elim _ _
  show (outsAt1 V c t.val t.isLt).2.1 (ix2 (0 : Fin 1) q)
    = ∑ n : Fin 100000, R V c (ix2 (n0 := 100000) (n1 := 128) n q)
  rw [(inv V c t.val t.isLt q).1, h19, ← sum_all]

/-- The same for the row of sums of squares. -/
private theorem flushed_5 (c : Dev nD) (t : Fin cfg1.N) (hf : (cfg1.win 5).flush t = true) :
    (dat1 (F := Ideal) V c).flushed 5 t = ((cfg1.win 5).blk t).view.read (Elt Ideal) (Cert.Spec.colsumsq (R V c)) := by
  have ht := lt20 t
  have h19 : t.val = 19 := by have := (flush1_5 t).mp hf; omega
  obtain ⟨-, -, -, -, -, -, -, -, -, -, e0, e1⟩ := idx_facts t
  have hz' : (fun a => win1_5.index t a * main_v54_2.ty.shape.size a) = fun _ => 0 := funext fun a => by
    match a with
    | ⟨0, _⟩ => show win1_5.index t (0 : Fin 2) * 1 = 0; omega
    | ⟨1, _⟩ => show win1_5.index t (1 : Fin 2) * 128 = 0; omega
  show (cfg1.win 5).cut (grid1.coords t) ((dat1 (F := Ideal) V c).after 5 t) = _
  rw [after1_5]
  refine Eq.trans ?_ (Memref.read_access_unit_zero (Elt Ideal) main_v54_2 hz' (fun a => by rw [congrFun hz' a]; simp)
    (Cert.Spec.colsumsq (R V c))).symm
  funext j
  obtain ⟨u, q, rfl⟩ : ∃ (u : Fin 1) (q : Fin 128), j = ix2 u q := ⟨j 0, j 1, eq_ix2 j⟩
  obtain rfl : u = 0 := Subsingleton.elim _ _
  show (outsAt1 V c t.val t.isLt).2.2 (ix2 (0 : Fin 1) q)
    = ∑ n : Fin 100000, R V c (ix2 (n0 := 100000) (n1 := 128) n q) * R V c (ix2 (n0 := 100000) (n1 := 128) n q)
  rw [(inv V c t.val t.isLt q).2, h19, ← sumsq_all]

end Finals

/-! ## The region's three outputs -/

variable (V : (c : Dev nD) → (b : Ref sig .tc) → Buf (Elt Ideal) ((c : Thread nD τ).loc b))

/-- The array r after the region. -/
theorem final_raw (c : Dev nD) :
    (dat1 (F := Ideal) V c).arrAt 3 cfg1.N = Cert.Spec.raw (V c main_v51) (V c main_v52) (V c main_v53) :=
  (dat1 (F := Ideal) V c).arrAt_eq_of_cover 3 (R V c) (flushed_3 V c) cover_3

/-- The row of column sums after the region. -/
theorem final_sum (c : Dev nD) :
    (dat1 (F := Ideal) V c).arrAt 4 cfg1.N = Cert.Spec.colsum (Cert.Spec.raw (V c main_v51) (V c main_v52) (V c main_v53)) :=
  (dat1 (F := Ideal) V c).arrAt_eq_of_cover 4 (Cert.Spec.colsum (R V c)) (flushed_4 V c) cover_4

/-- The row of column sums of squares after the region. -/
theorem final_sumsq (c : Dev nD) :
    (dat1 (F := Ideal) V c).arrAt 5 cfg1.N = Cert.Spec.colsumsq (Cert.Spec.raw (V c main_v51) (V c main_v52) (V c main_v53)) :=
  (dat1 (F := Ideal) V c).arrAt_eq_of_cover 5 (Cert.Spec.colsumsq (R V c)) (flushed_5 V c) cover_5

end Cert.KernelIdeal.Region1

end
-- ==== Proof.KRegion2.lean ====
/-
  The third kernel region: per block of 5000 rows, t = r · scale + shift (two rows broadcast down the block) and the
  result t · logistic t.
-/
import proofs.«144120_j55035710931434_1_alg».proof.Proof.Gen.KernelIdeal.Frame
import proofs.«144120_j55035710931434_1_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## One element of a block -/

/-- Two zero offsets are the zero offset. -/
private theorem hz : (![0, 0] : Fin 2 → Nat) = fun _ => 0 := funext fun a => by fin_cases a <;> rfl

/-- The body's arithmetic at element (p, q) of the block: a same-shape cast is the identity, a row [1, 128] broadcast
    down 5000 rows reads the row at q, and the elementwise operations are the extended reals'. So with
    s = x0[p, q] · x1[0, q] + x2[0, q] the element is s · logistic s. -/
private theorem pay_apply (x0 : Vec Ideal S5000x128 .f32) (x1 x2 : Vec Ideal S1x128 .f32) (p : Fin 5000) (q : Fin 128) :
    k2_pay1 (F := Ideal) x0 x1 x2 (ix2 p q)
      = (x0 (ix2 p q) * x1 (ix2 (0 : Fin 1) q) + x2 (ix2 (0 : Fin 1) q))
        * Ideal.logistic (x0 (ix2 p q) * x1 (ix2 (0 : Fin 1) q) + x2 (ix2 (0 : Fin 1) q)) := by
  unfold k2_pay1
  simp only [shapeCast_self]
  show (x0 (ix2 p q) * broadcastTo S5000x128 x1 broadcasts_S1x128_S5000x128 (ix2 p q)
        + broadcastTo S5000x128 x2 broadcasts_S1x128_S5000x128 (ix2 p q))
      * Ideal.logistic (x0 (ix2 p q) * broadcastTo S5000x128 x1 broadcasts_S1x128_S5000x128 (ix2 p q)
        + broadcastTo S5000x128 x2 broadcasts_S1x128_S5000x128 (ix2 p q)) = _
  rw [broadcastTo_1b_ab_apply, broadcastTo_1b_ab_apply]

/-! ## The blocks over the grid -/

/-- The block indices at every one of the 20 points: the block of r is the output's block on both axes; the scale row
    and the shift row stay at block (0, 0); the output's row block is at most 19 and its channel block is 0. -/
private theorem idx_facts : ∀ t : Fin cfg2.N, win2_0.index t (0 : Fin 2) = win2_3.index t (0 : Fin 2)
    ∧ win2_0.index t (1 : Fin 2) = win2_3.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 19 ∧ win2_3.index t (1 : Fin 2) = 0 :=
  (by decide +kernel : ∀ t : Fin grid2.N, _)

/-- Every one of the 20 row blocks is the output's block at some point. -/
private theorem idx_onto : ∀ q0 : Fin 20, ∃ t : Fin cfg2.N, win2_3.index t = ![q0.val, 0] :=
  (by decide +kernel : ∀ q0 : Fin 20, ∃ t : Fin grid2.N, win2_3.index t = ![q0.val, 0])

/-- What point t writes back is block t of the specification's array of the three arrays as the region finds them.
    Element (p, q) of the block is row 5000 · (block index) + p, channel q of the array: the block of r sits on the
    same rows and channels as the output's block, and each of the two rows is read whole at channel q. -/
private theorem flushed_eq (c : Dev nD) (t : Fin cfg2.N) :
    (dat2 (F := Ideal) V c).flushed 3 t
      = ((cfg2.win 3).blk t).view.read (Elt Ideal)
          (Cert.Spec.outK (V c main_v54_0) (V c main_v71) (V c main_v72)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
      = Cert.Spec.outK (V c main_v54_0) (V c main_v71) (V c main_v72) (((cfg2.win 3).blk t).view.emb (ix2 p q))
  rw [pay_apply]
  -- r's block element is the array's element under the output's block element
  have h0 : iblk2 V c 0 t (ix2 p q) = V c main_v54_0 (((cfg2.win 3).blk t).view.emb (ix2 p q)) := by
    show V c main_v54_0 (((cfg2.win 0).blk t).view.emb (ix2 p q)) = _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  -- the output's block element keeps its channel
  have hq : (((cfg2.win 3).blk t).view.emb (ix2 p q)) 1 = q := by
    apply Fin.ext
    show win2_3.index t (1 : Fin 2) * 128 + 1 * q.val = q.val
    omega
  -- each row's block is the row
  have h1 : iblk2 V c 1 t (ix2 (0 : Fin 1) q) = V c main_v71 (ix2 (0 : Fin 1) q) := by
    show V c main_v71 (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  have h2 : iblk2 V c 2 t (ix2 (0 : Fin 1) q) = V c main_v72 (ix2 (0 : Fin 1) q) := by
    show V c main_v72 (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  rw [h0, h1, h2]
  unfold Cert.Spec.outK
  rw [hq]

/-! ## The blocks fill the array -/

/-- An index of the array is in point t's block iff each coordinate is in the block's range on its axis. -/
private theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v73).slice (win2_3.rect t)).set ↔ _
  rw [View.set_slice_whole, Rect.mem_set_unit]
  exact Iff.rfl

/-- Row n, channel j is in the block of the point whose row block is n / 5000: 5000 · (n / 5000) ≤ n < that + 5000,
    and the one channel block holds all 128 channels. -/
private theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the region. -/
theorem final (c : Dev nD) :
    (dat2 (F := Ideal) V c).arrAt 3 cfg2.N = Cert.Spec.outK (V c main_v54_0) (V c main_v71) (V c main_v72) :=
  (dat2 V c).arrAt_eq_of_cover 3 _ (fun t _ => flushed_eq V c t) covered

end Cert.KernelIdeal.Region2

end
-- ==== Proof.KHost1.lean ====
/-
  The host operations before the second kernel region, read off the run's boundary contents: the first region is
  entered with the arguments as launched, and the second with the aggregate of the first region's result, the inverse
  degrees as a column and the bias as a row.

  The run is a fold of stretches of host operations, interrupted by the first region. At each boundary between two
  stretches a few buffers are named: a buffer that the stretch does not write keeps what it held, and a buffer that
  the stretch writes holds its operation's function of the operands' contents, which the previous boundary names.
  The named contents are the functions of the shared host chain (degree, inverse degree, hyperedge degree and its
  inverse, aggregate), so that no stretch is ever opened twice.
-/
import proofs.«144120_j55035710931434_1_alg».proof.Proof.Gen.KernelIdeal.Frame
import proofs.«144120_j55035710931434_1_alg».proof.Proof.Spec
import proofs.«144120_j55035710931434_1_alg».proof.Proof.KChain
import Idealize.ShloMosaic.Lib.Pipeline.Value

set_option maxRecDepth 16384

noncomputable section

namespace Cert.KernelIdeal.Host1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Facts₀ Cert.KernelIdeal.Facts

variable (m : (ℓ : Loc nD τ sig) → Buf (Elt Ideal) ℓ) (ρ : Dev nD → PrngReg)

/-- A buffer that no operation of a stretch writes holds after the stretch what it held before. -/
local macro "keeps " ops:ident " at " b:term : tactic =>
  `(tactic| exact StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## Before the first region: the incidence list is split into its two rows -/

/-- The first region finds x as launched. -/
theorem V1_arg0 (c : Dev nD) : V1 m ρ c main_arg0 = m ((c : Thread nD τ).loc main_arg0) := by
  show StableHlo.after hostOps0 (W0 m ρ c) (Proc.devRef .tc main_arg0) = _
  exact (by keeps hostOps0 at main_arg0 : StableHlo.after hostOps0 (W0 m ρ c) (Proc.devRef .tc main_arg0) = W0 m ρ c (Proc.devRef .tc main_arg0)).trans rfl

/-- The first region finds w as launched. -/
theorem V1_arg3 (c : Dev nD) : V1 m ρ c main_arg3 = m ((c : Thread nD τ).loc main_arg3) := by
  show StableHlo.after hostOps0 (W0 m ρ c) (Proc.devRef .tc main_arg3) = _
  exact (by keeps hostOps0 at main_arg3 : StableHlo.after hostOps0 (W0 m ρ c) (Proc.devRef .tc main_arg3) = W0 m ρ c (Proc.devRef .tc main_arg3)).trans rfl

private theorem W1_arg2 (c : Dev nD) : W1 m ρ c (Proc.devRef .tc main_arg2) = m ((c : Thread nD τ).loc main_arg2) :=
  (by keeps hostOps0 at main_arg2 : StableHlo.after hostOps0 (W0 m ρ c) (Proc.devRef .tc main_arg2) = W0 m ρ c (Proc.devRef .tc main_arg2)).trans rfl

private theorem W1_arg4 (c : Dev nD) : W1 m ρ c (Proc.devRef .tc main_arg4) = m ((c : Thread nD τ).loc main_arg4) :=
  (by keeps hostOps0 at main_arg4 : StableHlo.after hostOps0 (W0 m ρ c) (Proc.devRef .tc main_arg4) = W0 m ρ c (Proc.devRef .tc main_arg4)).trans rfl

private theorem W1_v1 (c : Dev nD) :
    W1 m ρ c (Proc.devRef .tc main_v1) = Chain.nodeIdx (m ((c : Thread nD τ).loc main_arg1)) := by
  show StableHlo.after hostOps0 (W0 m ρ c) (Proc.devRef .tc main_v1) = _
  after_results
  rfl

private theorem W1_v3 (c : Dev nD) :
    W1 m ρ c (Proc.devRef .tc main_v3) = Chain.edgeIdx (m ((c : Thread nD τ).loc main_arg1)) := by
  show StableHlo.after hostOps0 (W0 m ρ c) (Proc.devRef .tc main_v3) = _
  after_results
  rfl

/-! ## Across the first region: it writes its own result array only -/

private theorem W2_v1 (c : Dev nD) :
    W2 m ρ c (Proc.devRef .tc main_v1) = Chain.nodeIdx (m ((c : Thread nD τ).loc main_arg1)) :=
  (W2_of_ne m ρ c main_v1 (by decide)).trans (W1_v1 m ρ c)

private theorem W2_v3 (c : Dev nD) :
    W2 m ρ c (Proc.devRef .tc main_v3) = Chain.edgeIdx (m ((c : Thread nD τ).loc main_arg1)) :=
  (W2_of_ne m ρ c main_v3 (by decide)).trans (W1_v3 m ρ c)

private theorem W2_arg2 (c : Dev nD) : W2 m ρ c (Proc.devRef .tc main_arg2) = m ((c : Thread nD τ).loc main_arg2) :=
  (W2_of_ne m ρ c main_arg2 (by decide)).trans (W1_arg2 m ρ c)

private theorem W2_arg4 (c : Dev nD) : W2 m ρ c (Proc.devRef .tc main_arg4) = m ((c : Thread nD τ).loc main_arg4) :=
  (W2_of_ne m ρ c main_arg4 (by decide)).trans (W1_arg4 m ρ c)

/-! ## The node degrees: the comparison and the quotient the guarded inverse selects between -/

private theorem W3_v1 (c : Dev nD) :
    W3 m ρ c (Proc.devRef .tc main_v1) = Chain.nodeIdx (m ((c : Thread nD τ).loc main_arg1)) :=
  (by keeps hostOps1 at main_v1 : StableHlo.after hostOps1 (W2 m ρ c) (Proc.devRef .tc main_v1) = W2 m ρ c (Proc.devRef .tc main_v1)).trans (W2_v1 m ρ c)

private theorem W3_v3 (c : Dev nD) :
    W3 m ρ c (Proc.devRef .tc main_v3) = Chain.edgeIdx (m ((c : Thread nD τ).loc main_arg1)) :=
  (by keeps hostOps1 at main_v3 : StableHlo.after hostOps1 (W2 m ρ c) (Proc.devRef .tc main_v3) = W2 m ρ c (Proc.devRef .tc main_v3)).trans (W2_v3 m ρ c)

private theorem W3_v4 (c : Dev nD) : W3 m ρ c (Proc.devRef .tc main_v4) = W2 m ρ c (Proc.devRef .tc main_v4) := by
  keeps hostOps1 at main_v4

private theorem W3_arg4 (c : Dev nD) : W3 m ρ c (Proc.devRef .tc main_arg4) = m ((c : Thread nD τ).loc main_arg4) :=
  (by keeps hostOps1 at main_arg4 : StableHlo.after hostOps1 (W2 m ρ c) (Proc.devRef .tc main_arg4) = W2 m ρ c (Proc.devRef .tc main_arg4)).trans (W2_arg4 m ρ c)

private theorem W3_v16 (c : Dev nD) :
    W3 m ρ c (Proc.devRef .tc main_v16)
      = cmpf .ogt (Chain.deg (m ((c : Thread nD τ).loc main_arg1)) (m ((c : Thread nD τ).loc main_arg2)))
          (broadcastInDim S100000 ![] Facts₀.bcast_S_S100000 (constant (F := Ideal) S_ .f32 0x00000000#32)) := by
  show StableHlo.after hostOps1 (W2 m ρ c) (Proc.devRef .tc main_v16) = _
  after_results
  rw [W2_v1, W2_v3, W2_arg2]
  rfl

private theorem W3_v18 (c : Dev nD) :
    W3 m ρ c (Proc.devRef .tc main_v18)
      = Host.divf (broadcastInDim S100000 ![] Facts₀.bcast_S_S100000 (constant (F := Ideal) S_ .f32 0x3F800000#32))
          (Chain.deg (m ((c : Thread nD τ).loc main_arg1)) (m ((c : Thread nD τ).loc main_arg2))) := by
  show StableHlo.after hostOps1 (W2 m ρ c) (Proc.devRef .tc main_v18) = _
  after_results
  rw [W2_v1, W2_v3, W2_arg2]
  rfl

private theorem W3_cst3 (c : Dev nD) :
    W3 m ρ c (Proc.devRef .tc main_cst_3) = constant (F := Ideal) S_ .f32 0x00000000#32 := by
  show StableHlo.after hostOps1 (W2 m ρ c) (Proc.devRef .tc main_cst_3) = _
  after_results

/-! ## The guarded inverse of the node degrees (the first called function) -/

private theorem W4_v1 (c : Dev nD) :
    W4 m ρ c (Proc.devRef .tc main_v1) = Chain.nodeIdx (m ((c : Thread nD τ).loc main_arg1)) :=
  (by keeps hostOps1_1 at main_v1 : StableHlo.after hostOps1_1 (W3 m ρ c) (Proc.devRef .tc main_v1) = W3 m ρ c (Proc.devRef .tc main_v1)).trans (W3_v1 m ρ c)

private theorem W4_v3 (c : Dev nD) :
    W4 m ρ c (Proc.devRef .tc main_v3) = Chain.edgeIdx (m ((c : Thread nD τ).loc main_arg1)) :=
  (by keeps hostOps1_1 at main_v3 : StableHlo.after hostOps1_1 (W3 m ρ c) (Proc.devRef .tc main_v3) = W3 m ρ c (Proc.devRef .tc main_v3)).trans (W3_v3 m ρ c)

private theorem W4_v4 (c : Dev nD) : W4 m ρ c (Proc.devRef .tc main_v4) = W2 m ρ c (Proc.devRef .tc main_v4) :=
  (by keeps hostOps1_1 at main_v4 : StableHlo.after hostOps1_1 (W3 m ρ c) (Proc.devRef .tc main_v4) = W3 m ρ c (Proc.devRef .tc main_v4)).trans (W3_v4 m ρ c)

private theorem W4_arg4 (c : Dev nD) : W4 m ρ c (Proc.devRef .tc main_arg4) = m ((c : Thread nD τ).loc main_arg4) :=
  (by keeps hostOps1_1 at main_arg4 : StableHlo.after hostOps1_1 (W3 m ρ c) (Proc.devRef .tc main_arg4) = W3 m ρ c (Proc.devRef .tc main_arg4)).trans (W3_arg4 m ρ c)

private theorem W4_v19 (c : Dev nD) :
    W4 m ρ c (Proc.devRef .tc main_v19)
      = Chain.dinv (m ((c : Thread nD τ).loc main_arg1)) (m ((c : Thread nD τ).loc main_arg2)) := by
  have h16 := W3_v16 m ρ c
  have h18 := W3_v18 m ρ c
  have h3 := W3_cst3 m ρ c
  show StableHlo.after hostOps1_1 (W3 m ρ c) (Proc.devRef .tc main_v19) = _
  generalize W3 m ρ c = V at h16 h18 h3 ⊢
  after_results
  simp only [StableHlo.TRef.ofBuf, StableHlo.TRef.toBuf, cast_eq]
  rw [h16, h18, h3]
  rfl

/-! ## The hyperedge degrees: the comparison and the quotient of their guarded inverse -/

private theorem W5_v1 (c : Dev nD) :
    W5 m ρ c (Proc.devRef .tc main_v1) = Chain.nodeIdx (m ((c : Thread nD τ).loc main_arg1)) :=
  (by keeps hostOps1_2 at main_v1 : StableHlo.after hostOps1_2 (W4 m ρ c) (Proc.devRef .tc main_v1) = W4 m ρ c (Proc.devRef .tc main_v1)).trans (W4_v1 m ρ c)

private theorem W5_v3 (c : Dev nD) :
    W5 m ρ c (Proc.devRef .tc main_v3) = Chain.edgeIdx (m ((c : Thread nD τ).loc main_arg1)) :=
  (by keeps hostOps1_2 at main_v3 : StableHlo.after hostOps1_2 (W4 m ρ c) (Proc.devRef .tc main_v3) = W4 m ρ c (Proc.devRef .tc main_v3)).trans (W4_v3 m ρ c)

private theorem W5_v4 (c : Dev nD) : W5 m ρ c (Proc.devRef .tc main_v4) = W2 m ρ c (Proc.devRef .tc main_v4) :=
  (by keeps hostOps1_2 at main_v4 : StableHlo.after hostOps1_2 (W4 m ρ c) (Proc.devRef .tc main_v4) = W4 m ρ c (Proc.devRef .tc main_v4)).trans (W4_v4 m ρ c)

private theorem W5_arg4 (c : Dev nD) : W5 m ρ c (Proc.devRef .tc main_arg4) = m ((c : Thread nD τ).loc main_arg4) :=
  (by keeps hostOps1_2 at main_arg4 : StableHlo.after hostOps1_2 (W4 m ρ c) (Proc.devRef .tc main_arg4) = W4 m ρ c (Proc.devRef .tc main_arg4)).trans (W4_arg4 m ρ c)

private theorem W5_v19 (c : Dev nD) :
    W5 m ρ c (Proc.devRef .tc main_v19)
      = Chain.dinv (m ((c : Thread nD τ).loc main_arg1)) (m ((c : Thread nD τ).loc main_arg2)) :=
  (by keeps hostOps1_2 at main_v19 : StableHlo.after hostOps1_2 (W4 m ρ c) (Proc.devRef .tc main_v19) = W4 m ρ c (Proc.devRef .tc main_v19)).trans (W4_v19 m ρ c)

private theorem W5_v25 (c : Dev nD) :
    W5 m ρ c (Proc.devRef .tc main_v25)
      = cmpf .ogt (Chain.edgeDeg (m ((c : Thread nD τ).loc main_arg1)))
          (broadcastInDim S50000 ![] Facts₀.bcast_S_S50000 (constant (F := Ideal) S_ .f32 0x00000000#32)) := by
  have h3 := W4_v3 m ρ c
  show StableHlo.after hostOps1_2 (W4 m ρ c) (Proc.devRef .tc main_v25) = _
  generalize W4 m ρ c = V at h3 ⊢
  after_results
  rw [h3]
  rfl

private theorem W5_v27 (c : Dev nD) :
    W5 m ρ c (Proc.devRef .tc main_v27)
      = Host.divf (broadcastInDim S50000 ![] Facts₀.bcast_S_S50000 (constant (F := Ideal) S_ .f32 0x3F800000#32))
          (Chain.edgeDeg (m ((c : Thread nD τ).loc main_arg1))) := by
  have h3 := W4_v3 m ρ c
  show StableHlo.after hostOps1_2 (W4 m ρ c) (Proc.devRef .tc main_v27) = _
  generalize W4 m ρ c = V at h3 ⊢
  after_results
  rw [h3]
  rfl

private theorem W5_cst8 (c : Dev nD) :
    W5 m ρ c (Proc.devRef .tc main_cst_8) = constant (F := Ideal) S_ .f32 0x00000000#32 := by
  show StableHlo.after hostOps1_2 (W4 m ρ c) (Proc.devRef .tc main_cst_8) = _
  generalize W4 m ρ c = V
  after_results

/-! ## The guarded inverse of the hyperedge degrees (the second called function) -/

private theorem W6_v1 (c : Dev nD) :
    W6 m ρ c (Proc.devRef .tc main_v1) = Chain.nodeIdx (m ((c : Thread nD τ).loc main_arg1)) :=
  (by keeps hostOps1_3 at main_v1 : StableHlo.after hostOps1_3 (W5 m ρ c) (Proc.devRef .tc main_v1) = W5 m ρ c (Proc.devRef .tc main_v1)).trans (W5_v1 m ρ c)

private theorem W6_v3 (c : Dev nD) :
    W6 m ρ c (Proc.devRef .tc main_v3) = Chain.edgeIdx (m ((c : Thread nD τ).loc main_arg1)) :=
  (by keeps hostOps1_3 at main_v3 : StableHlo.after hostOps1_3 (W5 m ρ c) (Proc.devRef .tc main_v3) = W5 m ρ c (Proc.devRef .tc main_v3)).trans (W5_v3 m ρ c)

private theorem W6_v4 (c : Dev nD) : W6 m ρ c (Proc.devRef .tc main_v4) = W2 m ρ c (Proc.devRef .tc main_v4) :=
  (by keeps hostOps1_3 at main_v4 : StableHlo.after hostOps1_3 (W5 m ρ c) (Proc.devRef .tc main_v4) = W5 m ρ c (Proc.devRef .tc main_v4)).trans (W5_v4 m ρ c)

private theorem W6_arg4 (c : Dev nD) : W6 m ρ c (Proc.devRef .tc main_arg4) = m ((c : Thread nD τ).loc main_arg4) :=
  (by keeps hostOps1_3 at main_arg4 : StableHlo.after hostOps1_3 (W5 m ρ c) (Proc.devRef .tc main_arg4) = W5 m ρ c (Proc.devRef .tc main_arg4)).trans (W5_arg4 m ρ c)

private theorem W6_v19 (c : Dev nD) :
    W6 m ρ c (Proc.devRef .tc main_v19)
      = Chain.dinv (m ((c : Thread nD τ).loc main_arg1)) (m ((c : Thread nD τ).loc main_arg2)) :=
  (by keeps hostOps1_3 at main_v19 : StableHlo.after hostOps1_3 (W5 m ρ c) (Proc.devRef .tc main_v19) = W5 m ρ c (Proc.devRef .tc main_v19)).trans (W5_v19 m ρ c)

private theorem W6_v28 (c : Dev nD) :
    W6 m ρ c (Proc.devRef .tc main_v28) = Chain.binv (m ((c : Thread nD τ).loc main_arg1)) := by
  have h25 := W5_v25 m ρ c
  have h27 := W5_v27 m ρ c
  have h8 := W5_cst8 m ρ c
  show StableHlo.after hostOps1_3 (W5 m ρ c) (Proc.devRef .tc main_v28) = _
  generalize W5 m ρ c = V at h25 h27 h8 ⊢
  after_results
  simp only [StableHlo.TRef.ofBuf, StableHlo.TRef.toBuf, cast_eq]
  rw [h25, h27, h8]
  rfl

/-! ## A vector read as a column and as a row -/

/-- A vector cast to a column reads, at (i, 0), its entry i: both have row-major position i. -/
private theorem cast_col {α : Type} {a : ℕ} (x : (⟨1, ![a]⟩ : Shape).Idx → α)
    (h : (⟨1, ![a]⟩ : Shape).ShapeCasts ⟨2, ![a, 1]⟩) (i : (⟨2, ![a, 1]⟩ : Shape).Idx) :
    shapeCast ⟨2, ![a, 1]⟩ x h i = x (ix1 (i 0)) :=
  shapeCast_apply x h _ _ (by
    have h1 : (i 1).val = 0 := by
      have := (i 1).isLt
      change _ < 1 at this
      omega
    rw [Shape.rowMajor_val_one, Shape.rowMajor_val_two]
    show (i 0).val = (i 0).val * 1 + (i 1).val
    rw [h1, Nat.mul_one, Nat.add_zero])

/-- A vector cast to a row reads, at (0, j), its entry j: both have row-major position j. -/
private theorem cast_row {α : Type} {a : ℕ} (x : (⟨1, ![a]⟩ : Shape).Idx → α)
    (h : (⟨1, ![a]⟩ : Shape).ShapeCasts ⟨2, ![1, a]⟩) (j : (⟨2, ![1, a]⟩ : Shape).Idx) :
    shapeCast ⟨2, ![1, a]⟩ x h j = x (ix1 (j 1)) :=
  shapeCast_apply x h _ _ (by
    have h0 : (j 0).val = 0 := by
      have := (j 0).isLt
      change _ < 1 at this
      omega
    rw [Shape.rowMajor_val_one, Shape.rowMajor_val_two]
    show (j 1).val = (j 0).val * a + (j 1).val
    rw [h0, Nat.zero_mul, Nat.zero_add])

/-! ## The last stretch before the second region: hyperedge features, the aggregate, and the two reshapes -/

/-- The second region's first operand: the aggregate of the first region's result array. -/
theorem V7_v51 (c : Dev nD) :
    V7 m ρ c main_v51 = Chain.agg (W2 m ρ c (Proc.devRef .tc main_v4)) (m ((c : Thread nD τ).loc main_arg1)) := by
  have h1 := W6_v1 m ρ c
  have h3 := W6_v3 m ρ c
  have h4 := W6_v4 m ρ c
  have h28 := W6_v28 m ρ c
  show StableHlo.after hostOps1_4 (W6 m ρ c) (Proc.devRef .tc main_v51) = _
  generalize W6 m ρ c = V at h1 h3 h4 h28 ⊢
  after_results_simp
  rw [h1, h3, h4, h28]
  rfl

/-- Its second operand: the inverse degrees as a column. -/
theorem V7_v52 (c : Dev nD) :
    V7 m ρ c main_v52
      = Cert.Spec.colOf (Chain.dinv (m ((c : Thread nD τ).loc main_arg1)) (m ((c : Thread nD τ).loc main_arg2))) := by
  have h19 := W6_v19 m ρ c
  show StableHlo.after hostOps1_4 (W6 m ρ c) (Proc.devRef .tc main_v52) = _
  generalize W6 m ρ c = V at h19 ⊢
  after_results_simp
  rw [h19]
  funext i
  exact cast_col _ _ i

/-- Its third operand: the bias as a row. -/
theorem V7_v53 (c : Dev nD) : V7 m ρ c main_v53 = Cert.Spec.rowOf (m ((c : Thread nD τ).loc main_arg4)) := by
  have h4 := W6_arg4 m ρ c
  show StableHlo.after hostOps1_4 (W6 m ρ c) (Proc.devRef .tc main_v53) = _
  generalize W6 m ρ c = V at h4 ⊢
  after_results_simp
  rw [h4]
  funext j
  exact cast_row _ _ j

end Cert.KernelIdeal.Host1

end
-- ==== Proof.KHost2.lean ====
/-
  The host operations between the second and the third kernel region: from the two rows of column sums, the mean, the
  clamped variance, and the scale and shift rows the third region reads; the array r itself passes through untouched,
  and so do the arguments γ and β up to here.
-/
import proofs.«144120_j55035710931434_1_alg».proof.Proof.Gen.KernelIdeal.Frame
import proofs.«144120_j55035710931434_1_alg».proof.Proof.Spec
import Idealize.ShloMosaic.Lib.ValueLayout

set_option maxRecDepth 16384

noncomputable section

namespace Cert.KernelIdeal.Host2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Facts₀ Cert.KernelIdeal.Facts

variable (m : (ℓ : Loc nD τ sig) → Buf (Elt Ideal) ℓ) (ρ : Dev nD → PrngReg)

/-! ## What the stretch leaves untouched -/

/-- The third region finds r as the second region left it. -/
theorem V9_v54_0 (c : Dev nD) : V9 m ρ c main_v54_0 = W8 m ρ c (Proc.devRef .tc main_v54_0) :=
  StableHlo.after_of_forall_not_mem (b := Proc.devRef .tc main_v54_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- γ at the second region's exit is γ as launched: nothing after that exit writes it either, and it ends as launched. -/
private theorem W8_arg5 (c : Dev nD) : W8 m ρ c (Proc.devRef .tc main_arg5) = m ((c : Thread nD τ).loc main_arg5) :=
  ((StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) :
      W9 m ρ c (Proc.devRef .tc main_arg5) = W8 m ρ c (Proc.devRef .tc main_arg5)).symm.trans
    (W10_of_ne m ρ c main_arg5 (by decide)).symm).trans (W10_main_arg5 m ρ c)

/-- β likewise. -/
private theorem W8_arg6 (c : Dev nD) : W8 m ρ c (Proc.devRef .tc main_arg6) = m ((c : Thread nD τ).loc main_arg6) :=
  ((StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) :
      W9 m ρ c (Proc.devRef .tc main_arg6) = W8 m ρ c (Proc.devRef .tc main_arg6)).symm.trans
    (W10_of_ne m ρ c main_arg6 (by decide)).symm).trans (W10_main_arg6 m ρ c)

/-! ## The stretch from any contents: the scale and the shift rows as functions of the two sum rows, γ and β

The two sum rows are read as vectors (the row [1, C] at (0, j)), divided by the node count, combined into the clamped
variance, and the results written back as rows (the vector at j, whatever the unit coordinate): entry by entry these
are the specification's scaleK and shiftK. -/

set_option maxHeartbeats 4000000 in
private theorem after_v71 (V : Valuation τ sig (Elt Ideal)) :
    StableHlo.after hostOps2 V (Proc.devRef .tc main_v71)
      = Cert.Spec.scaleRow (V (Proc.devRef .tc main_v54_1)) (V (Proc.devRef .tc main_v54_2))
          (V (Proc.devRef .tc main_arg5)) := by
  after_results_simp
  funext j
  obtain ⟨u, i, rfl⟩ : ∃ u i, j = ix2 u i := ⟨j 0, j 1, eq_ix2 j⟩
  refine (shapeCast_a_1a_apply _ _ u i).trans ?_
  show _ = Cert.Spec.scaleK _ _ _ i
  unfold Cert.Spec.scaleK Cert.Spec.varK Cert.Spec.meanK
  rw [← shapeCast_1a_a_apply (V (Proc.devRef .tc main_v54_1)) Gen.shapeCasts_S1x128_S128 i,
    ← shapeCast_1a_a_apply (V (Proc.devRef .tc main_v54_2)) Gen.shapeCasts_S1x128_S128 i]
  rfl

set_option maxHeartbeats 4000000 in
private theorem after_v72 (V : Valuation τ sig (Elt Ideal)) :
    StableHlo.after hostOps2 V (Proc.devRef .tc main_v72)
      = Cert.Spec.shiftRow (V (Proc.devRef .tc main_v54_1)) (V (Proc.devRef .tc main_v54_2))
          (V (Proc.devRef .tc main_arg5)) (V (Proc.devRef .tc main_arg6)) := by
  after_results_simp
  funext j
  obtain ⟨u, i, rfl⟩ : ∃ u i, j = ix2 u i := ⟨j 0, j 1, eq_ix2 j⟩
  refine (shapeCast_a_1a_apply _ _ u i).trans ?_
  show _ = Cert.Spec.shiftK _ _ _ _ i
  unfold Cert.Spec.shiftK Cert.Spec.scaleK Cert.Spec.varK Cert.Spec.meanK
  rw [← shapeCast_1a_a_apply (V (Proc.devRef .tc main_v54_1)) Gen.shapeCasts_S1x128_S128 i,
    ← shapeCast_1a_a_apply (V (Proc.devRef .tc main_v54_2)) Gen.shapeCasts_S1x128_S128 i]
  rfl

/-! ## At the second region's exit contents -/

set_option maxHeartbeats 1000000 in
/-- The scale row. -/
theorem V9_v71 (c : Dev nD) :
    V9 m ρ c main_v71
      = Cert.Spec.scaleRow (W8 m ρ c (Proc.devRef .tc main_v54_1)) (W8 m ρ c (Proc.devRef .tc main_v54_2))
          (m ((c : Thread nD τ).loc main_arg5)) := by
  have h := after_v71 (W8 m ρ c)
  rw [W8_arg5 m ρ c] at h
  exact h

set_option maxHeartbeats 1000000 in
/-- The shift row. -/
theorem V9_v72 (c : Dev nD) :
    V9 m ρ c main_v72
      = Cert.Spec.shiftRow (W8 m ρ c (Proc.devRef .tc main_v54_1)) (W8 m ρ c (Proc.devRef .tc main_v54_2))
          (m ((c : Thread nD τ).loc main_arg5)) (m ((c : Thread nD τ).loc main_arg6)) := by
  have h := after_v72 (W8 m ρ c)
  rw [W8_arg5 m ρ c, W8_arg6 m ρ c] at h
  exact h

end Cert.KernelIdeal.Host2

end
-- ==== Proof.KValue.lean ====
/-
  The kernel program's result array as one function of its argument arrays: the regions' and the host stretches'
  values composed along the run. With xt = x · w, A the aggregate of xt over the incidence list, d the inverse
  degrees and r = A · d + b, the result is the kernel's normalisation of r by its column sums.
-/
import proofs.«144120_j55035710931434_1_alg».proof.Proof.Gen.KernelIdeal.Frame
import proofs.«144120_j55035710931434_1_alg».proof.Proof.Spec
import proofs.«144120_j55035710931434_1_alg».proof.Proof.KChain
import proofs.«144120_j55035710931434_1_alg».proof.Proof.KRegion0
import proofs.«144120_j55035710931434_1_alg».proof.Proof.KRegion1
import proofs.«144120_j55035710931434_1_alg».proof.Proof.KRegion2
import proofs.«144120_j55035710931434_1_alg».proof.Proof.KHost1
import proofs.«144120_j55035710931434_1_alg».proof.Proof.KHost2

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-- The array r as a function of the arguments. -/
def rawOf (c : Dev nD) : Cert.Spec.SNC.Idx → EReal :=
  Cert.Spec.raw1
    (Chain.agg (F := Ideal) (Cert.Spec.xw (m ((c : Thread nD τ).loc main_arg0)) (m ((c : Thread nD τ).loc main_arg3)))
      (m ((c : Thread nD τ).loc main_arg1)))
    (Chain.dinv (F := Ideal) (m ((c : Thread nD τ).loc main_arg1)) (m ((c : Thread nD τ).loc main_arg2)))
    (m ((c : Thread nD τ).loc main_arg4))

/-- After the first region its result array is the projection of the arguments. -/
theorem W2_v4 (c : Dev nD) :
    W2 m ρ c (Proc.devRef .tc main_v4)
      = Cert.Spec.xw (m ((c : Thread nD τ).loc main_arg0)) (m ((c : Thread nD τ).loc main_arg3)) := by
  refine (W2_arr m ρ c 2).trans ?_
  rw [Region0.final (V1 m ρ) c, Host1.V1_arg0, Host1.V1_arg3]

/-- After the second region: r. -/
theorem W8_raw (c : Dev nD) : W8 m ρ c (Proc.devRef .tc main_v54_0) = rawOf m c := by
  refine (W8_arr m ρ c 3).trans ?_
  rw [Region1.final_raw (V7 m ρ) c, Host1.V7_v51, Host1.V7_v52, Host1.V7_v53, W2_v4, Cert.Spec.raw_colOf_rowOf]
  rfl

/-- After the second region: the column sums of r. -/
theorem W8_sum (c : Dev nD) : W8 m ρ c (Proc.devRef .tc main_v54_1) = Cert.Spec.colsum (rawOf m c) := by
  refine (W8_arr m ρ c 4).trans ?_
  rw [Region1.final_sum (V7 m ρ) c, Host1.V7_v51, Host1.V7_v52, Host1.V7_v53, W2_v4, Cert.Spec.raw_colOf_rowOf]
  rfl

/-- After the second region: the column sums of r². -/
theorem W8_sumsq (c : Dev nD) : W8 m ρ c (Proc.devRef .tc main_v54_2) = Cert.Spec.colsumsq (rawOf m c) := by
  refine (W8_arr m ρ c 5).trans ?_
  rw [Region1.final_sumsq (V7 m ρ) c, Host1.V7_v51, Host1.V7_v52, Host1.V7_v53, W2_v4, Cert.Spec.raw_colOf_rowOf]
  rfl

/-- The result array: the kernel's normalisation of r. -/
theorem W10_v73 (c : Dev nD) :
    W10 m ρ c (Proc.devRef .tc main_v73)
      = Cert.Spec.normK (rawOf m c) (m ((c : Thread nD τ).loc main_arg5)) (m ((c : Thread nD τ).loc main_arg6)) := by
  refine (W10_arr m ρ c 3).trans ?_
  rw [Region2.final (V9 m ρ) c, Host2.V9_v54_0, Host2.V9_v71, Host2.V9_v72, W8_raw, W8_sum, W8_sumsq]
  rfl

end Cert.KernelIdeal.KValue

end
-- ==== Proof.RefValue.lean ====
/-
  The reference program's stages read index by index at the extended reals: its projection is x · w; its array
  r is the aggregate times the inverse degree plus the bias; and its result is the reference's normalisation of r
  (mean and centred variance over the rows, the affine map, then t · (1 / (1 + e^(−t)))).
-/
import proofs.«144120_j55035710931434_1_alg».proof.Proof.RefRead
import proofs.«144120_j55035710931434_1_alg».proof.Proof.Spec

noncomputable section

open scoped BigOperators

namespace Cert.RefValue

open Idealize.ShloMosaic Idealize.ShloMosaic.ValueIdx Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S50000, .f32⟩ : BufTy).Contents (Elt Ideal)) (x3 : (⟨S128x128, .f32⟩ : BufTy).Contents (Elt Ideal))
  (x4 x5 x6 : (⟨S128, .f32⟩ : BufTy).Contents (Elt Ideal))

/- The stages are used only through their read-at-an-index equations; none is ever opened. -/
attribute [local irreducible] val_main_v19 val_main_v51 val_main_v52 val_main_v53 val_main_v54 val_main_v55 val_main_v56
  val_main_v57 val_main_v58 val_main_v59 val_main_v60 val_main_v61 val_main_v62 val_main_v63 val_main_v64 val_main_v65
  val_main_v66 val_main_v67 val_main_v68 val_main_v69 val_main_v70 val_main_v71 val_main_v72 val_main_v73 val_main_v74
  val_main_v75 val_main_v76 val_main_v77 val_main_v78 val_main_v79 val_main_v80 val_main_v81 val_main_v82 val_main_v83
  val_main_v84 val_main_v85 val_main_v86 val_main_v87 val_main_v88 val_main_v89

/-! ## Index equations: the composed index maps of the layout operations, as indices built from coordinates -/

private theorem lidx4 (i : S100000x128.Idx) (k : Fin 128) :
    lidx_main_v4 i k = ix2 (n0 := 100000) (n1 := 128) (i 0) k :=
  funext fun a => by match a with | ⟨0, _⟩ => rfl | ⟨1, _⟩ => rfl

private theorem ridx4 (i : S100000x128.Idx) (k : Fin 128) :
    ridx_main_v4 i k = ix2 (n0 := 128) (n1 := 128) k (i 1) :=
  funext fun a => by match a with | ⟨0, _⟩ => rfl | ⟨1, _⟩ => rfl

/-- The reference's projection is x · w. -/
theorem xt_eq : val_main_v4 (F := Ideal) x0 x3 = Cert.Spec.xw x0 x3 := by
  funext i
  rw [val_main_v4_apply]
  simp only [lidx4, ridx4]
  rfl

private theorem idx5253 (i : S100000x128.Idx) :
    idx_main_v52 (idx_main_v53 i) = ix1 (n := 100000) (i 0) :=
  funext fun a => by match a with | ⟨0, _⟩ => rfl

private theorem idx5556 (i : S100000x128.Idx) :
    idx_main_v55 (idx_main_v56 i) = ix1 (n := 128) (i 1) :=
  funext fun a => by match a with | ⟨0, _⟩ => rfl

/-- The reference's array r from its aggregate and inverse degrees. -/
theorem raw_eq :
    val_main_v57 (F := Ideal) x0 x1 x2 x3 x4
      = Cert.Spec.raw1 (val_main_v51 (F := Ideal) x0 x1 x3) (val_main_v19 (F := Ideal) x1 x2) x4 := by
  funext i
  rw [val_main_v57_apply, val_main_v54_apply, val_main_v53_apply, val_main_v52_apply, val_main_v56_apply,
    val_main_v55_apply, idx5253, idx5556]
  rfl

/-! ## The reference's normalisation, stage by stage -/

private theorem idx58 (j : Fin 128) (k : Fin 100000) :
    idx_main_v58 (ix1 (n := 128) j) k = ix2 (n0 := 100000) (n1 := 128) k j :=
  funext fun a => by match a with | ⟨0, _⟩ => rfl | ⟨1, _⟩ => rfl

private theorem idx65 (j : Fin 128) (k : Fin 100000) :
    idx_main_v65 (ix1 (n := 128) j) k = ix2 (n0 := 100000) (n1 := 128) k j :=
  funext fun a => by match a with | ⟨0, _⟩ => rfl | ⟨1, _⟩ => rfl

private theorem idx6162 (p : Fin 100000) (q : Fin 128) :
    idx_main_v61 (idx_main_v62 (ix2 (n0 := 100000) (n1 := 128) p q)) = ix1 (n := 128) q :=
  funext fun a => by match a with | ⟨0, _⟩ => rfl

private theorem idx6869 (p : Fin 100000) (q : Fin 128) :
    idx_main_v68 (idx_main_v69 (ix2 (n0 := 100000) (n1 := 128) p q)) = ix1 (n := 128) q :=
  funext fun a => by match a with | ⟨0, _⟩ => rfl

private theorem idx7475 (p : Fin 100000) (q : Fin 128) :
    idx_main_v74 (idx_main_v75 (ix2 (n0 := 100000) (n1 := 128) p q)) = ix1 (n := 128) q :=
  funext fun a => by match a with | ⟨0, _⟩ => rfl

private theorem idx7778 (p : Fin 100000) (q : Fin 128) :
    idx_main_v77 (idx_main_v78 (ix2 (n0 := 100000) (n1 := 128) p q)) = ix1 (n := 128) q :=
  funext fun a => by match a with | ⟨0, _⟩ => rfl

private theorem idx8081 (p : Fin 100000) (q : Fin 128) :
    idx_main_v80 (idx_main_v81 (ix2 (n0 := 100000) (n1 := 128) p q)) = ix1 (n := 128) q :=
  funext fun a => by match a with | ⟨0, _⟩ => rfl

/-- The mean over the rows, at channel j: the sum from zero, over the number of nodes. -/
private theorem mean_eq (j : Fin 128) :
    val_main_v60 (F := Ideal) x0 x1 x2 x3 x4 (ix1 (n := 128) j)
      = Cert.Spec.meanR (val_main_v57 (F := Ideal) x0 x1 x2 x3 x4) j := by
  rw [val_main_v60_apply, val_main_v58_apply, val_main_v59_apply, val_main_cst_16_apply, val_main_cst_15_apply]
  generalize val_main_v57 (F := Ideal) x0 x1 x2 x3 x4 = r
  simp only [idx58, Cert.Spec.meanR, Ideal.hostDivf_def, Ideal.ofBits_def]

/-- The square of r minus the mean, at row p and channel q. -/
private theorem sq_eq (p : Fin 100000) (q : Fin 128) :
    val_main_v64 (F := Ideal) x0 x1 x2 x3 x4 (ix2 (n0 := 100000) (n1 := 128) p q)
      = (val_main_v57 (F := Ideal) x0 x1 x2 x3 x4 (ix2 (n0 := 100000) (n1 := 128) p q)
          - Cert.Spec.meanR (val_main_v57 (F := Ideal) x0 x1 x2 x3 x4) q)
        * (val_main_v57 (F := Ideal) x0 x1 x2 x3 x4 (ix2 (n0 := 100000) (n1 := 128) p q)
          - Cert.Spec.meanR (val_main_v57 (F := Ideal) x0 x1 x2 x3 x4) q) := by
  rw [val_main_v64_apply x0 x1 x2 x3 x4 (ix2 p q), val_main_v63_apply x0 x1 x2 x3 x4 (ix2 p q),
    val_main_v62_apply x0 x1 x2 x3 x4 (ix2 p q), val_main_v61_apply x0 x1 x2 x3 x4 (idx_main_v62 (ix2 p q)),
    idx6162 p q, mean_eq x0 x1 x2 x3 x4 q]
  generalize val_main_v57 (F := Ideal) x0 x1 x2 x3 x4 = r
  simp only [Ideal.mulf_def, Ideal.subf_def]

/-- The centred variance over the rows, at channel j: the squares of r minus the mean, summed from zero, over the number
    of nodes. -/
private theorem var_eq (j : Fin 128) :
    val_main_v67 (F := Ideal) x0 x1 x2 x3 x4 (ix1 (n := 128) j)
      = Cert.Spec.varR (val_main_v57 (F := Ideal) x0 x1 x2 x3 x4) j := by
  rw [val_main_v67_apply x0 x1 x2 x3 x4 (ix1 j), val_main_v65_apply x0 x1 x2 x3 x4 (ix1 j), val_main_v66_apply (ix1 j),
    val_main_cst_18_apply, val_main_cst_17_apply]
  have hs : ∀ k : Fin 100000, val_main_v64 (F := Ideal) x0 x1 x2 x3 x4 (idx_main_v65 (ix1 (n := 128) j) k)
      = (val_main_v57 (F := Ideal) x0 x1 x2 x3 x4 (ix2 (n0 := 100000) (n1 := 128) k j)
          - Cert.Spec.meanR (val_main_v57 (F := Ideal) x0 x1 x2 x3 x4) j)
        * (val_main_v57 (F := Ideal) x0 x1 x2 x3 x4 (ix2 (n0 := 100000) (n1 := 128) k j)
          - Cert.Spec.meanR (val_main_v57 (F := Ideal) x0 x1 x2 x3 x4) j) :=
    fun k => by rw [idx65 j k, sq_eq x0 x1 x2 x3 x4 k j]
  rw [Finset.sum_congr rfl (fun k _ => hs k)]
  generalize val_main_v57 (F := Ideal) x0 x1 x2 x3 x4 = r
  simp only [Cert.Spec.varR, Ideal.hostDivf_def, Ideal.ofBits_def]

/-- The reference's normalised value at row p and channel q, with the channel's coordinate read off. -/
private theorem bnR_at (r : Cert.Spec.SNC.Idx → EReal) (γ β : Cert.Spec.SC.Idx → EReal) (p : Fin 100000) (q : Fin 128) :
    Cert.Spec.bnR r γ β (ix2 (n0 := 100000) (n1 := 128) p q)
      = ((r (ix2 (n0 := 100000) (n1 := 128) p q) - Cert.Spec.meanR r q)
          * Ideal.rsqrt (Cert.Spec.varR r q + Cert.Spec.eps)) * γ (ix1 (n := 128) q) + β (ix1 (n := 128) q) := rfl

/-- The normalised value before the activation, at row p and channel q. -/
private theorem bn_eq (p : Fin 100000) (q : Fin 128) :
    val_main_v82 (F := Ideal) x0 x1 x2 x3 x4 x5 x6 (ix2 (n0 := 100000) (n1 := 128) p q)
      = Cert.Spec.bnR (val_main_v57 (F := Ideal) x0 x1 x2 x3 x4) x5 x6 (ix2 (n0 := 100000) (n1 := 128) p q) := by
  rw [val_main_v82_apply x0 x1 x2 x3 x4 x5 x6 (ix2 p q), val_main_v79_apply x0 x1 x2 x3 x4 x5 (ix2 p q),
    val_main_v76_apply x0 x1 x2 x3 x4 (ix2 p q), val_main_v70_apply x0 x1 x2 x3 x4 (ix2 p q),
    val_main_v69_apply x0 x1 x2 x3 x4 (ix2 p q), val_main_v68_apply x0 x1 x2 x3 x4 (idx_main_v69 (ix2 p q)),
    idx6869 p q, mean_eq x0 x1 x2 x3 x4 q,
    val_main_v75_apply x0 x1 x2 x3 x4 (ix2 p q), val_main_v74_apply x0 x1 x2 x3 x4 (idx_main_v75 (ix2 p q)),
    idx7475 p q, val_main_v73_apply x0 x1 x2 x3 x4 (ix1 q), val_main_v72_apply x0 x1 x2 x3 x4 (ix1 q),
    var_eq x0 x1 x2 x3 x4 q, val_main_v71_apply (ix1 q), val_main_cst_19_apply,
    val_main_v78_apply x5 (ix2 p q), val_main_v77_apply x5 (idx_main_v78 (ix2 p q)), idx7778 p q,
    val_main_v81_apply x6 (ix2 p q), val_main_v80_apply x6 (idx_main_v81 (ix2 p q)), idx8081 p q,
    bnR_at]
  generalize val_main_v57 (F := Ideal) x0 x1 x2 x3 x4 = r
  simp only [Ideal.addf_def, Ideal.mulf_def, Ideal.subf_def, Ideal.hostUnary_rsqrt_def, Ideal.ofBits_def]

/-- The reference's result is its normalisation of r. -/
theorem out_eq :
    val_main_v89 (F := Ideal) x0 x1 x2 x3 x4 x5 x6
      = Cert.Spec.normR (val_main_v57 (F := Ideal) x0 x1 x2 x3 x4) x5 x6 := by
  funext i
  obtain ⟨p, q, rfl⟩ : ∃ (p : Fin 100000) (q : Fin 128), i = ix2 p q := ⟨i 0, i 1, eq_ix2 i⟩
  rw [val_main_v89_apply x0 x1 x2 x3 x4 x5 x6 (ix2 p q), val_main_v88_apply x0 x1 x2 x3 x4 x5 x6 (ix2 p q),
    val_main_v87_apply (ix2 p q), val_main_cst_21_apply, val_main_v86_apply x0 x1 x2 x3 x4 x5 x6 (ix2 p q),
    val_main_v85_apply (ix2 p q), val_main_cst_20_apply, val_main_v84_apply x0 x1 x2 x3 x4 x5 x6 (ix2 p q),
    val_main_v83_apply x0 x1 x2 x3 x4 x5 x6 (ix2 p q), bn_eq x0 x1 x2 x3 x4 x5 x6 p q]
  generalize val_main_v57 (F := Ideal) x0 x1 x2 x3 x4 = r
  simp only [Cert.Spec.normR, Ideal.mulf_def, Ideal.hostDivf_def, Ideal.addf_def, Ideal.hostUnary_exp_def,
    Ideal.hostNegf_def, Ideal.negf_def, Ideal.ofBits_def]

end Cert.RefValue

end
-- ==== Proof.Bridge.lean ====
/-
  The host stretch the two programs share is one function: the reference's aggregate and inverse degrees, stage by
  stage, are the named functions of KChain.lean applied to the reference's projection and the incidence list.
-/
import proofs.«144120_j55035710931434_1_alg».proof.Proof.RefRead
import proofs.«144120_j55035710931434_1_alg».proof.Proof.KChain

noncomputable section

namespace Cert.Bridge

open Idealize.ShloMosaic Cert.ReferenceIdeal Cert.ReferenceIdeal.ReadP

variable {F : FTy → Type} [FloatOps F]

variable (x0 : (⟨S100000x128, .f32⟩ : BufTy).Contents (Elt F)) (x1 : (⟨S2x1600000, .i32⟩ : BufTy).Contents (Elt F))
  (x2 : (⟨S50000, .f32⟩ : BufTy).Contents (Elt F)) (x3 : (⟨S128x128, .f32⟩ : BufTy).Contents (Elt F))

/-- The reference's inverse degrees are the shared stretch's. -/
theorem dinv_eq : val_main_v19 (F := F) x1 x2 = Cert.KernelIdeal.Chain.dinv x1 x2 := rfl

/-- The reference's aggregate is the shared stretch's, of the reference's projection. -/
theorem agg_eq : val_main_v51 (F := F) x0 x1 x3 = Cert.KernelIdeal.Chain.agg (val_main_v4 (F := F) x0 x3) x1 := rfl

end Cert.Bridge

end
-- ==== Proof.lean ====
/-
  The certificate. The kernel's program computes, in three kernels, the projection x · w, the array
  r = A · d + b (A the hypergraph aggregate of the projection, d the inverse node degrees) with its column sums, and
  silu (r · scale + shift) with scale = γ · rsqrt (var + ε), shift = β − mean · scale, mean = S1 / N and
  var = max (S2 / N − mean², 0); the reference computes silu (((r − mean) · rsqrt (var' + ε)) · γ + β) with the centred
  variance var'. The aggregate and the inverse degrees are the same functions in both programs; under the precondition
  every input is real-valued, hence so is r, and on real arrays the two normalisations agree
  (Σ (r − mean)² = S2 − N · mean² ≥ 0, and the affine maps agree by distributivity).
  The frames of the two kernel programs are the generated frame certificates; the reference's frame is its run with
  the result dropped; no operation was rewritten by the idealisation, so there is nothing to preserve.
-/
import proofs.«144120_j55035710931434_1_alg».proof.Defs
import proofs.«144120_j55035710931434_1_alg».proof.Proof.Gen.Kernel
import proofs.«144120_j55035710931434_1_alg».proof.Proof.Gen.Kernel.Frame
import proofs.«144120_j55035710931434_1_alg».proof.Proof.Gen.KernelIdeal
import proofs.«144120_j55035710931434_1_alg».proof.Proof.Gen.KernelIdeal.Frame
import proofs.«144120_j55035710931434_1_alg».proof.Proof.Gen.ReferenceIdeal
import proofs.«144120_j55035710931434_1_alg».proof.Proof.Gen.Pre_finite_inputs
import proofs.«144120_j55035710931434_1_alg».proof.Proof.Spec
import proofs.«144120_j55035710931434_1_alg».proof.Proof.Algebra
import proofs.«144120_j55035710931434_1_alg».proof.Proof.FinOps
import proofs.«144120_j55035710931434_1_alg».proof.Proof.PreFin
import proofs.«144120_j55035710931434_1_alg».proof.Proof.KRun
import proofs.«144120_j55035710931434_1_alg».proof.Proof.KValue
import proofs.«144120_j55035710931434_1_alg».proof.Proof.RefRun
import proofs.«144120_j55035710931434_1_alg».proof.Proof.RefRead
import proofs.«144120_j55035710931434_1_alg».proof.Proof.RefReadEq
import proofs.«144120_j55035710931434_1_alg».proof.Proof.RefValue
import proofs.«144120_j55035710931434_1_alg».proof.Proof.Bridge
import Idealize.ShloMosaic.Adequacy
import Idealize.ShloMosaic.Init

noncomputable section

namespace Cert.Proof

open Idealize.ShloMosaic Idealize.ShloMosaic.TcCoe Idealize.SL.Sem

/-- The reference's result array as a function of its arguments: the reference's normalisation of the same r. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v89 (F := Ideal) m' c
      = Cert.Spec.normR
          (Cert.Spec.raw1
            (Cert.KernelIdeal.Chain.agg (F := Ideal)
              (Cert.Spec.xw (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg3)))
              (m' ((c.tc : Thread Cert.ReferenceIdeal.nD Cert.ReferenceIdeal.τ).loc Cert.ReferenceIdeal.main_arg1)))
            (Cert.KernelIdeal.Chain.dinv (F := Ideal)
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)))
            (m' ((c.tc : Thread Cert.ReferenceIdeal.nD Cert.ReferenceIdeal.τ).loc Cert.ReferenceIdeal.main_arg4)))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  rw [Cert.ReferenceIdeal.ReadP.val_main_v89_eq, Cert.RefValue.out_eq, Cert.RefValue.raw_eq, Cert.Bridge.agg_eq, Cert.Bridge.dinv_eq,
    Cert.RefValue.xt_eq]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result array. -/
theorem algebraic : Cert.algebraic_KernelIdeal_ReferenceIdeal := by
  intro m ρ m' ρ' hpre hagree
  refine ⟨fun c => Cert.KernelIdeal.Gen.W10 m ρ c (Proc.devRef .tc Cert.KernelIdeal.main_v73),
    Cert.KernelIdeal.GenRun.run_named m ρ, ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6⟩ := hagree c
  obtain ⟨f0, f2, f3, f4, f5, f6⟩ := Cert.PreFin.args_allReal m hpre c
  refine (ref_value m' c).trans ?_
  refine Eq.trans ?_ (Cert.KernelIdeal.KValue.W10_v73 m ρ c).symm
  rw [h0, h1, h2, h3, h4, h5, h6]
  refine (Cert.Spec.normK_eq_normR _ _ _ ?_ f5 f6).symm
  exact Cert.Spec.raw1_allReal _ _ _
    (Cert.KernelIdeal.Chain.agg_allReal _ _ (Cert.Spec.xw_allReal _ _ f0 f3))
    (Cert.KernelIdeal.Chain.dinv_allReal _ _ f2) f4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
